-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x2048 : Shape := ⟨3, ![256, 512, 2048]⟩
abbrev S256x512 : Shape := ⟨2, ![256, 512]⟩
abbrev S_ : Shape := ⟨0, ![]⟩

class Facts : Prop where
  bcast_S_S256x512x2048 : S_.BroadcastsInDim S256x512x2048 (![] : Fin 0 → Fin S256x512x2048.rank)
  reducesTo_S256x512x2048_S_d0_1_2 : S256x512x2048.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512x2048 .f32) (main_arg1 : FVec F S256x512 .f32) (main_arg2 : IVec S256x512 32) (main_arg3 : IVec S256x512 32) : IVec S_ 1 :=
  let main_v0 : FVec F S256x512x2048 .f32 := Host.absf main_arg0
  let main_cst : FVec F S_ .f32 := constant S_ .f32 0x7F800000#32
  let main_v1 : FVec F S256x512x2048 .f32 := broadcastInDim S256x512x2048 ![] bcast_S_S256x512x2048 main_cst
  let main_v2 : IVec S256x512x2048 1 := cmpf .olt main_v0 main_v1
  let main_c : IVec S_ 1 := constantI S_ 1 1#1
  let main_v3 : IVec S_ 1 := (fun x v => Host.reduce IntOp.andi x v reducesTo_S256x512x2048_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_c_2 : IVec S_ 32 := constantI S_ 32 0#32
  let main_v9 : IVec S256x512 32 := broadcastInDim S256x512 ![] bcast_S_S256x512 main_c_2
  let main_v10 : IVec S256x512 1 := cmpi .sge main_arg2 main_v9
  let main_c_3 : IVec S_ 1 := constantI S_ 1 1#1
  let main_v11 : IVec S_ 1 := (fun x v => Host.reduce IntOp.andi x v reducesTo_S256x512_S_d0_1 h_S_) main_v10 main_c_3
  let main_v12 : IVec S_ 1 := andi main_v8 main_v11
  let main_c_4 : IVec S_ 32 := constantI S_ 32 2048#32
  let main_v13 : IVec S256x512 32 := broadcastInDim S256x512 ![] bcast_S_S256x512 main_c_4
  let main_v14 : IVec S256x512 1 := cmpi .slt main_arg2 main_v13
  let main_c_5 : IVec S_ 1 := constantI S_ 1 1#1
  let main_v15 : IVec S_ 1 := (fun x v => Host.reduce IntOp.andi x v reducesTo_S256x512_S_d0_1 h_S_) main_v14 main_c_5
  fn_part1 (F := F) main_v12 main_v15
-- ==== Kernel.lean ====
abbrev S256x512x2048 : Shape := ⟨3, ![256, 512, 2048]⟩
abbrev S256x512 : Shape := ⟨2, ![256, 512]⟩
abbrev S256x1 : Shape := ⟨2, ![256, 1]⟩
abbrev S8x128x2048 : Shape := ⟨3, ![8, 128, 2048]⟩
abbrev S8x128 : Shape := ⟨2, ![8, 128]⟩
abbrev S8x1 : Shape := ⟨2, ![8, 1]⟩
abbrev S8x128x1 : Shape := ⟨3, ![8, 128, 1]⟩
abbrev S8 : Shape := ⟨1, ![8]⟩
abbrev S256 : Shape := ⟨1, ![256]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S256x512x2048, .f32⟩
  | .hbm, ⟨1, _⟩ => ⟨S256x512, .f32⟩
  | .hbm, ⟨2, _⟩ => ⟨S256x512, .i32⟩
  | .hbm, ⟨3, _⟩ => ⟨S256x512, .i32⟩
  | .hbm, ⟨4, _⟩ => ⟨S256x1, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x128x2048, .f32⟩
  | .local _ .vmem, ⟨1, _⟩ => ⟨S8x128x2048, .f32⟩
  | .local _ .vmem, ⟨2, _⟩ => ⟨S8x128, .i32⟩
  | .local _ .vmem, ⟨3, _⟩ => ⟨S8x128, .i32⟩
  | .local _ .vmem, ⟨4, _⟩ => ⟨S8x128, .i32⟩
  | .local _ .vmem, ⟨5, _⟩ => ⟨S8x128, .i32⟩
  | .local _ .vmem, ⟨6, _⟩ => ⟨S8x1, .f32⟩
  | .local _ .vmem, ⟨7, _⟩ => ⟨S8x1, .f32⟩
  | _, _ => ⟨S256x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x1_S8x1_0_0 : ∀ a, (![0, 0] : Fin 2 → Nat) a + S8x1.size a ≤ S8x1.size a
  h_S8x1 : 0 < S8x1.numel
  inb_S8x128x2048_S8x128x2048_0_0_0 : ∀ a, (![0, 0, 0] : Fin 3 → Nat) a + S8x128x2048.size a ≤ S8x128x2048.size a
  h_S8x128x2048 : 0 < S8x128x2048.numel
  reduces_S8x128x2048_S8x128 : S8x128x2048.Reduces [2] S8x128
  shapeCasts_S8x128_S8x128x1 : S8x128.ShapeCasts S8x128x1
  broadcasts_S8x128x1_S8x128x2048 : S8x128x1.Broadcasts S8x128x2048
  inb_S8x128_S8x128_0_0 : ∀ a, (![0, 0] : Fin 2 → Nat) a + S8x128.size a ≤ S8x128.size a
  h_S8x128 : 0 < S8x128.numel
  iota_S8x128x2048_d2_w32 : S8x128x2048.Iotas .tc 32 [2]
  shapeCasts_S8x128x1_S8x128 : S8x128x1.ShapeCasts S8x128
  reduces_S8x128_S8 : S8x128.Reduces [1] S8
  shapeCasts_S8_S8x1 : S8.ShapeCasts S8x1
  shapeCasts_S8x1_S8x1 : S8x1.ShapeCasts S8x1
  shapeCasts_S256x1_S256 : S256x1.ShapeCasts S256
  reducesTo_S256x512_S256_d1 : S256x512.ReducesTo [1] S256
  h_S_ : 0 < S_.numel
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S256x512x2048.size a
  hwx0_0 : ∀ i : grid0.Coords, EltTy.bits .f32 = 32 ∨ (Rect.block (s := S256x512x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S256x512.size a
  hwx0_1 : ∀ i : grid0.Coords, EltTy.bits .i32 = 32 ∨ (Rect.block (s := S256x512) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S256x512.size a
  hwx0_2 : ∀ i : grid0.Coords, EltTy.bits .i32 = 32 ∨ (Rect.block (s := S256x512) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S256x1.size a
  hwx0_3 : ∀ i : grid0.Coords, EltTy.bits .f32 = 32 ∨ (Rect.block (s := S256x1) S8x1.size (cc0_transform_3 i) (hinb0_3 i)).WholeWords (EltTy.packing .f32)

variable [Facts₀]

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x512x2048 : Shape := ⟨3, ![256, 512, 2048]⟩
abbrev S256x512 : Shape := ⟨2, ![256, 512]⟩
abbrev S_ : Shape := ⟨0, ![]⟩
abbrev S256x512x1 : Shape := ⟨3, ![256, 512, 1]⟩
abbrev S256x512x1x1 : Shape := ⟨4, ![256, 512, 1, 1]⟩
abbrev S1 : Shape := ⟨1, ![1]⟩
abbrev S1x1x1x1 : Shape := ⟨4, ![1, 1, 1, 1]⟩
abbrev S256 : Shape := ⟨1, ![256]⟩

abbrev nBuf : Space → Nat
  | .hbm => 60
  | .vmem => 0
  | .smem => 0
  | _ => 0

abbrev bufTy : (tb : Table) → Fin (tcTables nBuf tb) → BufTy
  | .hbm, ⟨0, _⟩ => ⟨S256x512x2048, .f32⟩
  | .hbm, ⟨1, _⟩ => ⟨S256x512, .f32⟩
  | .hbm, ⟨2, _⟩ => ⟨S256x512, .i32⟩
  | .hbm, ⟨3, _⟩ => ⟨S256x512, .i32⟩
  | .hbm, ⟨4, _⟩ => ⟨S256x512, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S256x512x1, .f32⟩
  | .hbm, ⟨9, _⟩ => ⟨S_, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512x1, .f32⟩
  | .hbm, ⟨15, _⟩ => ⟨S256x512x2048, .f32⟩
  | .hbm, ⟨16, _⟩ => ⟨S256x512x2048, .f32⟩
  | .hbm, ⟨17, _⟩ => ⟨S256x512x2048, .f32⟩
  | .hbm, ⟨18, _⟩ => ⟨S_, .f32⟩
  | .hbm, ⟨19, _⟩ => ⟨S256x512, .f32⟩
  | .hbm, ⟨20, _⟩ => ⟨S256x512x1, .f32⟩
  | .hbm, ⟨21, _⟩ => ⟨S256x512x1, .f32⟩
  | .hbm, ⟨22, _⟩ => ⟨S256x512x2048, .f32⟩
  | .hbm, ⟨23, _⟩ => ⟨S256x512x2048, .f32⟩
  | .hbm, ⟨24, _⟩ => ⟨S256x512x2048, .f32⟩
  | .hbm, ⟨25, _⟩ => ⟨S256x512x2048, .f32⟩
  | .hbm, ⟨26, _⟩ => ⟨S256x512x1, .i32⟩
  | .hbm, ⟨27, _⟩ => ⟨S_, .i32⟩
  | .hbm, ⟨28, _⟩ => ⟨S256x512x1, .i32⟩
  | .hbm, ⟨29, _⟩ => ⟨S256x512x1, .i1⟩
  | .hbm, ⟨30, _⟩ => ⟨S_, .i32⟩
  | .hbm, ⟨31, _⟩ => ⟨S256x512x1, .i32⟩
  | .hbm, ⟨32, _⟩ => ⟨S256x512x1, .i32⟩
  | .hbm, ⟨33, _⟩ => ⟨S256x512x1, .i32⟩
  | .hbm, ⟨34, _⟩ => ⟨S256x512x1x1, .i32⟩
  | .hbm, ⟨35, _⟩ => ⟨S1, .i32⟩
  | .hbm, ⟨36, _⟩ => ⟨S_, .i32⟩
  | .hbm, ⟨37, _⟩ => ⟨S256x512x1x1, .i32⟩
  | .hbm, ⟨38, _⟩ => ⟨S256x512x1x1, .i1⟩
  | .hbm, ⟨39, _⟩ => ⟨S1x1x1x1, .i32⟩
  | .hbm, ⟨40, _⟩ => ⟨S256x512x1x1, .i32⟩
  | .hbm, ⟨41, _⟩ => ⟨S256x512x1x1, .i1⟩
  | .hbm, ⟨42, _⟩ => ⟨S256x512x1x1, .i1⟩
  | .hbm, ⟨43, _⟩ => ⟨S_, .i1⟩
  | .hbm, ⟨44, _⟩ => ⟨S256x512x1, .i1⟩
  | .hbm, ⟨45, _⟩ => ⟨S256x512x1, .f32⟩
  | .hbm, ⟨46, _⟩ => ⟨S_, .f32⟩
  | .hbm, ⟨47, _⟩ => ⟨S256x512x1, .f32⟩
  | .hbm, ⟨48, _⟩ => ⟨S256x512x1, .f32⟩
  | .hbm, ⟨49, _⟩ => ⟨S256x512, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S256x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v8 : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_cst_2 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  reducesTo_S256x512x2048_S256x512_d2 : S256x512x2048.ReducesTo [2] S256x512
  h_S_ : 0 < S_.numel
  bcast_S256x512x1_S256x512x2048_0_1_2 : S256x512x1.BroadcastsInDim S256x512x2048 (![0, 1, 2] : Fin 3 → Fin S256x512x2048.rank)
  bcast_S_S256x512x1 : S_.BroadcastsInDim S256x512x1 (![] : Fin 0 → Fin S256x512x1.rank)
  shapeCasts_S256x512x1_S256x512x1x1 : S256x512x1.ShapeCasts S256x512x1x1
  bcast_S_S256x512x1x1 : S_.BroadcastsInDim S256x512x1x1 (![] : Fin 0 → Fin S256x512x1x1.rank)
  bcast_S1_S1x1x1x1_3 : S1.BroadcastsInDim S1x1x1x1 (![3] : Fin 1 → Fin S1x1x1x1.rank)
  bcast_S1x1x1x1_S256x512x1x1_0_1_2_3 : S1x1x1x1.BroadcastsInDim S256x512x1x1 (![0, 1, 2, 3] : Fin 4 → Fin S256x512x1x1.rank)
  reducesTo_S256x512x1x1_S256x512x1_d3 : S256x512x1x1.ReducesTo [3] S256x512x1
  shapeCasts_S256x512x1_S256x512 : S256x512x1.ShapeCasts S256x512
  reducesTo_S256x512_S256_d1 : S256x512.ReducesTo [1] S256
  reducesTo_S256_S_d0 : S256.ReducesTo [0] S_
  gather_S256x512x2048_S256x512x1x1_S256x512x1_n_2_01_01_2_3_111_wf : GatherDims.WF S256x512x2048 S256x512x1x1 S256x512x1 [] [2] [0, 1] [2] [0, 1] 3 ![1, 1, 1]

variable [Facts₀]

def gather_S256x512x2048_S256x512x1x1_S256x512x1_n_2_01_01_2_3_111 : GatherDims S256x512x2048 S256x512x1x1 S256x512x1 where
  offsetDims := []
  collapsedSliceDims := [2]
  operandBatchingDims := [0, 1]
  startIndicesBatchingDims := [0, 1]
  startIndexMap := [2]
  indexVectorDim := 3
  sliceSizes := ![1, 1, 1]
  wf := gather_S256x512x2048_S256x512x1x1_S256x512x1_n_2_01_01_2_3_111_wf

class Facts : Prop extends Facts₀ where

variable [Facts]
-- ==== Proof.RefRun.lean ====
/-
  The reference program's run, read back.

  The reference is a straight line of 56 host operations: its own 20 and, in the places of its two calls,
  the 16 of the log-softmax and the 20 of the take-along-axis. Listed in order, each operation writes one
  buffer from buffers written before it, so every weakly fair execution ends with the result buffer at the
  composition of the operations' functions on the arguments, and with the arguments as they were. The
  composition is named stage by stage; the last stage is the mean loss.

  The operations of the two called functions are spelt here with the same builders as the others, over the
  buffers the calls name; each is, by unfolding, the operation the printed function performs on those buffers.
-/
import proofs.«423830_j83013127897790_2_alg».proof.Proof.Gen.ReferenceIdeal
import proofs.«423830_j83013127897790_2_alg».proof.Proof.RefReadPatched
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The log-softmax's row maximum: at each position, the maximum over the 2048 actions from the initial value,
    as one function of the logits and the initial value. -/
def maxOverActions : (⟨S256x512x2048, .f32⟩ : BufTy).Contents (Elt F) → (⟨S_, .f32⟩ : BufTy).Contents (Elt F) → (⟨S256x512, .f32⟩ : BufTy).Contents (Elt F) :=
  fun x v => Host.reduce FloatOps.maximumf x v reducesTo_S256x512x2048_S256x512_d2 h_S_

/-- The take-along-axis's range test folded over its index vector's one component: the "and" over the unit
    axis from the initial value, as one function of the tests and the initial value. -/
def andOverUnit : (⟨S256x512x1x1, .i1⟩ : BufTy).Contents (Elt F) → (⟨S_, .i1⟩ : BufTy).Contents (Elt F) → (⟨S256x512x1, .i1⟩ : BufTy).Contents (Elt F) :=
  fun x v => Host.reduce IntOp.andi x v reducesTo_S256x512x1x1_S256x512x1_d3 h_S_

/-- The reference's 56 operations, in order. -/
abbrev ops : List (HloOp τ sig (Elt F)) :=
  [ unary main_arg3 main_v0 (sitofp .f32 : (⟨S256x512, .i32⟩ : BufTy).Contents (Elt F) → (⟨S256x512, .f32⟩ : BufTy).Contents (Elt F)),
    nullary main_cst (constant S_ .f32 0x3F800000#32),
    unary main_cst main_v1 (broadcastInDim S256x512 ![] bcast_S_S256x512 : (⟨S_, .f32⟩ : BufTy).Contents (Elt F) → (⟨S256x512, .f32⟩ : BufTy).Contents (Elt F)),
    binary main_v1 main_v0 main_v2 (subf : (⟨S256x512, .f32⟩ : BufTy).Contents (Elt F) → (⟨S256x512, .f32⟩ : BufTy).Contents (Elt F) → (⟨S256x512, .f32⟩ : BufTy).Contents (Elt F)),
    unary main_v2 main_v3 (broadcastInDim S256x512x1 ![0, 1] bcast_S256x512_S256x512x1_0_1 : (⟨S256x512, .f32⟩ : BufTy).Contents (Elt F) → (⟨S256x512x1, .f32⟩ : BufTy).Contents (Elt F)),
    nullary main_call0_cst (constant S_ .f32 0xFF800000#32),
    binary main_arg0 main_call0_cst main_call0_v0 maxOverActions,
    nullary main_call0_cst_0 (constant S_ .f32 0xFF800000#32),
    unary main_call0_cst_0 main_call0_v1 ((broadcastInDim S256x512 ![] bcast_S_S256x512) : (⟨S_, .f32⟩ : BufTy).Contents (Elt F) → (⟨S256x512, .f32⟩ : BufTy).Contents (Elt F)),
    binary main_call0_v1 main_call0_v0 main_call0_v2 ((maximumf) : (⟨S256x512, .f32⟩ : BufTy).Contents (Elt F) → (⟨S256x512, .f32⟩ : BufTy).Contents (Elt F) → (⟨S256x512, .f32⟩ : BufTy).Contents (Elt F)),
    unary main_call0_v2 main_call0_v3 ((broadcastInDim S256x512x1 ![0, 1] bcast_S256x512_S256x512x1_0_1) : (⟨S256x512, .f32⟩ : BufTy).Contents (Elt F) → (⟨S256x512x1, .f32⟩ : BufTy).Contents (Elt F)),
    unary main_call0_v3 main_call0_v4 ((broadcastInDim S256x512x2048 ![0, 1, 2] bcast_S256x512x1_S256x512x2048_0_1_2) : (⟨S256x512x1, .f32⟩ : BufTy).Contents (Elt F) → (⟨S256x512x2048, .f32⟩ : BufTy).Contents (Elt F)),
    binary main_arg0 main_call0_v4 main_call0_v5 ((subf) : (⟨S256x512x2048, .f32⟩ : BufTy).Contents (Elt F) → (⟨S256x512x2048, .f32⟩ : BufTy).Contents (Elt F) → (⟨S256x512x2048, .f32⟩ : BufTy).Contents (Elt F)),
    unary main_call0_v5 main_call0_v6 ((Host.exp) : (⟨S256x512x2048, .f32⟩ : BufTy).Contents (Elt F) → (⟨S256x512x2048, .f32⟩ : BufTy).Contents (Elt F)),
    nullary main_call0_cst_1 (constant S_ .f32 0x00000000#32),
    binary main_call0_v6 main_call0_cst_1 main_call0_v7 ((fun x v => Host.reduceAdd x v reducesTo_S256x512x2048_S256x512_d2 h_S_) : (⟨S256x512x2048, .f32⟩ : BufTy).Contents (Elt F) → (⟨S_, .f32⟩ : BufTy).Contents (Elt F) → (⟨S256x512, .f32⟩ : BufTy).Contents (Elt F)),
    unary main_call0_v7 main_call0_v8 ((broadcastInDim S256x512x1 ![0, 1] bcast_S256x512_S256x512x1_0_1) : (⟨S256x512, .f32⟩ : BufTy).Contents (Elt F) → (⟨S256x512x1, .f32⟩ : BufTy).Contents (Elt F)),
    unary main_call0_v8 main_call0_v9 ((Host.log) : (⟨S256x512x1, .f32⟩ : BufTy).Contents (Elt F) → (⟨S256x512x1, .f32⟩ : BufTy).Contents (Elt F)),
    unary main_call0_v9 main_call0_v10 ((broadcastInDim S256x512x2048 ![0, 1, 2] bcast_S256x512x1_S256x512x2048_0_1_2) : (⟨S256x512x1, .f32⟩ : BufTy).Contents (Elt F) → (⟨S256x512x2048, .f32⟩ : BufTy).Contents (Elt F)),
    binary main_call0_v5 main_call0_v10 main_v4 ((subf) : (⟨S256x512x2048, .f32⟩ : BufTy).Contents (Elt F) → (⟨S256x512x2048, .f32⟩ : BufTy).Contents (Elt F) → (⟨S256x512x2048, .f32⟩ : BufTy).Contents (Elt F)),
    unary main_v3 main_v5 (broadcastInDim S256x512x2048 ![0, 1, 2] bcast_S256x512x1_S256x512x2048_0_1_2 : (⟨S256x512x1, .f32⟩ : BufTy).Contents (Elt F) → (⟨S256x512x2048, .f32⟩ : BufTy).Contents (Elt F)),
    binary main_v4 main_v5 main_v6 (mulf : (⟨S256x512x2048, .f32⟩ : BufTy).Contents (Elt F) → (⟨S256x512x2048, .f32⟩ : BufTy).Contents (Elt F) → (⟨S256x512x2048, .f32⟩ : BufTy).Contents (Elt F)),
    unary main_arg2 main_v7 (broadcastInDim S256x512x1 ![0, 1] bcast_S256x512_S256x512x1_0_1 : (⟨S256x512, .i32⟩ : BufTy).Contents (Elt F) → (⟨S256x512x1, .i32⟩ : BufTy).Contents (Elt F)),
    nullary main_call1_c (constantI S_ 32 0#32),
    unary main_call1_c main_call1_v0 ((broadcastInDim S256x512x1 ![] bcast_S_S256x512x1) : (⟨S_, .i32⟩ : BufTy).Contents (Elt F) → (⟨S256x512x1, .i32⟩ : BufTy).Contents (Elt F)),
    binary main_v7 main_call1_v0 main_call1_v1 ((cmpi .slt) : (⟨S256x512x1, .i32⟩ : BufTy).Contents (Elt F) → (⟨S256x512x1, .i32⟩ : BufTy).Contents (Elt F) → (⟨S256x512x1, .i1⟩ : BufTy).Contents (Elt F)),
    nullary main_call1_c_0 (constantI S_ 32 2048#32),
    unary main_call1_c_0 main_call1_v2 ((broadcastInDim S256x512x1 ![] bcast_S_S256x512x1) : (⟨S_, .i32⟩ : BufTy).Contents (Elt F) → (⟨S256x512x1, .i32⟩ : BufTy).Contents (Elt F)),
    binary main_v7 main_call1_v2 main_call1_v3 ((addi) : (⟨S256x512x1, .i32⟩ : BufTy).Contents (Elt F) → (⟨S256x512x1, .i32⟩ : BufTy).Contents (Elt F) → (⟨S256x512x1, .i32⟩ : BufTy).Contents (Elt F)),
    ternary main_call1_v1 main_call1_v3 main_v7 main_call1_v4 ((select) : (⟨S256x512x1, .i1⟩ : BufTy).Contents (Elt F) → (⟨S256x512x1, .i32⟩ : BufTy).Contents (Elt F) → (⟨S256x512x1, .i32⟩ : BufTy).Contents (Elt F) → (⟨S256x512x1, .i32⟩ : BufTy).Contents (Elt F)),
    reshape main_call1_v4 main_call1_v5 rfl shapeCasts_S256x512x1_S256x512x1x1,
    nullary main_call1_c_1 (constantI S1 32 2047#32),
    nullary main_call1_c_2 (constantI S_ 32 0#32),
    unary main_call1_c_2 main_call1_v6 ((broadcastInDim S256x512x1x1 ![] bcast_S_S256x512x1x1) : (⟨S_, .i32⟩ : BufTy).Contents (Elt F) → (⟨S256x512x1x1, .i32⟩ : BufTy).Contents (Elt F)),
    binary main_call1_v5 main_call1_v6 main_call1_v7 ((cmpi .sge) : (⟨S256x512x1x1, .i32⟩ : BufTy).Contents (Elt F) → (⟨S256x512x1x1, .i32⟩ : BufTy).Contents (Elt F) → (⟨S256x512x1x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S256x512x1x1 ![0, 1, 2, 3] bcast_S1x1x1x1_S256x512x1x1_0_1_2_3) : (⟨S1x1x1x1, .i32⟩ : BufTy).Contents (Elt F) → (⟨S256x512x1x1, .i32⟩ : BufTy).Contents (Elt F)),
    binary main_call1_v5 main_call1_v9 main_call1_v10 ((cmpi .sle) : (⟨S256x512x1x1, .i32⟩ : BufTy).Contents (Elt F) → (⟨S256x512x1x1, .i32⟩ : BufTy).Contents (Elt F) → (⟨S256x512x1x1, .i1⟩ : BufTy).Contents (Elt F)),
    binary main_call1_v7 main_call1_v10 main_call1_v11 ((andi) : (⟨S256x512x1x1, .i1⟩ : BufTy).Contents (Elt F) → (⟨S256x512x1x1, .i1⟩ : BufTy).Contents (Elt F) → (⟨S256x512x1x1, .i1⟩ : BufTy).Contents (Elt F)),
    nullary main_call1_c_3 (constantI S_ 1 1#1),
    binary main_call1_v11 main_call1_c_3 main_call1_v12 andOverUnit,
    binary main_v6 main_call1_v5 main_call1_v13 ((fun x i => Host.gather gather_S256x512x2048_S256x512x1x1_S256x512x1_n_2_01_01_2_3_111 x i) : (⟨S256x512x2048, .f32⟩ : BufTy).Contents (Elt F) → (⟨S256x512x1x1, .i32⟩ : BufTy).Contents (Elt F) → (⟨S256x512x1, .f32⟩ : BufTy).Contents (Elt F)),
    nullary main_call1_cst (constant S_ .f32 0x7FC00000#32),
    unary main_call1_cst main_call1_v14 ((broadcastInDim S256x512x1 ![] bcast_S_S256x512x1) : (⟨S_, .f32⟩ : BufTy).Contents (Elt F) → (⟨S256x512x1, .f32⟩ : BufTy).Contents (Elt F)),
    ternary main_call1_v12 main_call1_v13 main_call1_v14 main_v8 ((select) : (⟨S256x512x1, .i1⟩ : BufTy).Contents (Elt F) → (⟨S256x512x1, .f32⟩ : BufTy).Contents (Elt F) → (⟨S256x512x1, .f32⟩ : BufTy).Contents (Elt F) → (⟨S256x512x1, .f32⟩ : BufTy).Contents (Elt F)),
    reshape main_v8 main_v9 rfl shapeCasts_S256x512x1_S256x512,
    nullary main_cst_0 (constant S_ .f32 0x00000000#32),
    binary main_v9 main_cst_0 main_v10 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    unary main_v10 main_v11 (Host.negf : (⟨S256, .f32⟩ : BufTy).Contents (Elt F) → (⟨S256, .f32⟩ : BufTy).Contents (Elt F)),
    nullary main_cst_1 (constant S_ .f32 0x00000000#32),
    binary main_arg1 main_cst_1 main_v12 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    binary main_v11 main_v12 main_v13 (mulf : (⟨S256, .f32⟩ : BufTy).Contents (Elt F) → (⟨S256, .f32⟩ : BufTy).Contents (Elt F) → (⟨S256, .f32⟩ : BufTy).Contents (Elt F)),
    nullary main_cst_2 (constant S_ .f32 0x00000000#32),
    binary main_v13 main_cst_2 main_v14 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_3 (constant S_ .f32 0x43800000#32),
    binary main_v14 main_cst_3 main_v15 (Host.divf : (⟨S_, .f32⟩ : BufTy).Contents (Elt F) → (⟨S_, .f32⟩ : BufTy).Contents (Elt F) → (⟨S_, .f32⟩ : BufTy).Contents (Elt F)) ]

/-- The same operations as the printed program spells them: those of the two called functions through the
    typed references of the calls' buffer records. -/
abbrev opsTyped : List (HloOp τ sig (Elt F)) :=
  [ unary main_arg3 main_v0 (sitofp .f32 : (⟨S256x512, .i32⟩ : BufTy).Contents (Elt F) → (⟨S256x512, .f32⟩ : BufTy).Contents (Elt F)),
    nullary main_cst (constant S_ .f32 0x3F800000#32),
    unary main_cst main_v1 (broadcastInDim S256x512 ![] bcast_S_S256x512 : (⟨S_, .f32⟩ : BufTy).Contents (Elt F) → (⟨S256x512, .f32⟩ : BufTy).Contents (Elt F)),
    binary main_v1 main_v0 main_v2 (subf : (⟨S256x512, .f32⟩ : BufTy).Contents (Elt F) → (⟨S256x512, .f32⟩ : BufTy).Contents (Elt F) → (⟨S256x512, .f32⟩ : BufTy).Contents (Elt F)),
    unary main_v2 main_v3 (broadcastInDim S256x512x1 ![0, 1] bcast_S256x512_S256x512x1_0_1 : (⟨S256x512, .f32⟩ : BufTy).Contents (Elt F) → (⟨S256x512x1, .f32⟩ : BufTy).Contents (Elt F)),
    TRef.nullary (TRef.of (T := ⟨S_, .f32⟩) main_call0_cst) (constant S_ .f32 0xFF800000#32),
    TRef.binary (TRef.of (T := ⟨S256x512x2048, .f32⟩) main_arg0) (TRef.of (T := ⟨S_, .f32⟩) main_call0_cst) (TRef.of (T := ⟨S256x512, .f32⟩) main_call0_v0) (fun x v => Host.reduce FloatOps.maximumf x v reducesTo_S256x512x2048_S256x512_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S256x512, .f32⟩) main_call0_v1) (broadcastInDim S256x512 ![] bcast_S_S256x512),
    TRef.binary (TRef.of (T := ⟨S256x512, .f32⟩) main_call0_v1) (TRef.of (T := ⟨S256x512, .f32⟩) main_call0_v0) (TRef.of (T := ⟨S256x512, .f32⟩) main_call0_v2) maximumf,
    TRef.unary (TRef.of (T := ⟨S256x512, .f32⟩) main_call0_v2) (TRef.of (T := ⟨S256x512x1, .f32⟩) main_call0_v3) (broadcastInDim S256x512x1 ![0, 1] bcast_S256x512_S256x512x1_0_1),
    TRef.unary (TRef.of (T := ⟨S256x512x1, .f32⟩) main_call0_v3) (TRef.of (T := ⟨S256x512x2048, .f32⟩) main_call0_v4) (broadcastInDim S256x512x2048 ![0, 1, 2] bcast_S256x512x1_S256x512x2048_0_1_2),
    TRef.binary (TRef.of (T := ⟨S256x512x2048, .f32⟩) main_arg0) (TRef.of (T := ⟨S256x512x2048, .f32⟩) main_call0_v4) (TRef.of (T := ⟨S256x512x2048, .f32⟩) main_call0_v5) subf,
    TRef.unary (TRef.of (T := ⟨S256x512x2048, .f32⟩) main_call0_v5) (TRef.of (T := ⟨S256x512x2048, .f32⟩) main_call0_v6) Host.exp,
    TRef.nullary (TRef.of (T := ⟨S_, .f32⟩) main_call0_cst_1) (constant S_ .f32 0x00000000#32),
    TRef.binary (TRef.of (T := ⟨S256x512x2048, .f32⟩) main_call0_v6) (TRef.of (T := ⟨S_, .f32⟩) main_call0_cst_1) (TRef.of (T := ⟨S256x512, .f32⟩) main_call0_v7) (fun x v => Host.reduceAdd x v reducesTo_S256x512x2048_S256x512_d2 h_S_),
    TRef.unary (TRef.of (T := ⟨S256x512, .f32⟩) main_call0_v7) (TRef.of (T := ⟨S256x512x1, .f32⟩) main_call0_v8) (broadcastInDim S256x512x1 ![0, 1] bcast_S256x512_S256x512x1_0_1),
    TRef.unary (TRef.of (T := ⟨S256x512x1, .f32⟩) main_call0_v8) (TRef.of (T := ⟨S256x512x1, .f32⟩) main_call0_v9) Host.log,
    TRef.unary (TRef.of (T := ⟨S256x512x1, .f32⟩) main_call0_v9) (TRef.of (T := ⟨S256x512x2048, .f32⟩) main_call0_v10) (broadcastInDim S256x512x2048 ![0, 1, 2] bcast_S256x512x1_S256x512x2048_0_1_2),
    TRef.binary (TRef.of (T := ⟨S256x512x2048, .f32⟩) main_call0_v5) (TRef.of (T := ⟨S256x512x2048, .f32⟩) main_call0_v10) (TRef.of (T := ⟨S256x512x2048, .f32⟩) main_v4) subf,
    unary main_v3 main_v5 (broadcastInDim S256x512x2048 ![0, 1, 2] bcast_S256x512x1_S256x512x2048_0_1_2 : (⟨S256x512x1, .f32⟩ : BufTy).Contents (Elt F) → (⟨S256x512x2048, .f32⟩ : BufTy).Contents (Elt F)),
    binary main_v4 main_v5 main_v6 (mulf : (⟨S256x512x2048, .f32⟩ : BufTy).Contents (Elt F) → (⟨S256x512x2048, .f32⟩ : BufTy).Contents (Elt F) → (⟨S256x512x2048, .f32⟩ : BufTy).Contents (Elt F)),
    unary main_arg2 main_v7 (broadcastInDim S256x512x1 ![0, 1] bcast_S256x512_S256x512x1_0_1 : (⟨S256x512, .i32⟩ : BufTy).Contents (Elt F) → (⟨S256x512x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S256x512x1, .i32⟩) main_call1_v0) (broadcastInDim S256x512x1 ![] bcast_S_S256x512x1),
    TRef.binary (TRef.of (T := ⟨S256x512x1, .i32⟩) main_v7) (TRef.of (T := ⟨S256x512x1, .i32⟩) main_call1_v0) (TRef.of (T := ⟨S256x512x1, .i1⟩) main_call1_v1) (cmpi .slt),
    TRef.nullary (TRef.of (T := ⟨S_, .i32⟩) main_call1_c_0) (constantI S_ 32 2048#32),
    TRef.unary (TRef.of (T := ⟨S_, .i32⟩) main_call1_c_0) (TRef.of (T := ⟨S256x512x1, .i32⟩) main_call1_v2) (broadcastInDim S256x512x1 ![] bcast_S_S256x512x1),
    TRef.binary (TRef.of (T := ⟨S256x512x1, .i32⟩) main_v7) (TRef.of (T := ⟨S256x512x1, .i32⟩) main_call1_v2) (TRef.of (T := ⟨S256x512x1, .i32⟩) main_call1_v3) addi,
    TRef.ternary (TRef.of (T := ⟨S256x512x1, .i1⟩) main_call1_v1) (TRef.of (T := ⟨S256x512x1, .i32⟩) main_call1_v3) (TRef.of (T := ⟨S256x512x1, .i32⟩) main_v7) (TRef.of (T := ⟨S256x512x1, .i32⟩) main_call1_v4) select,
    TRef.reshape (TRef.of (T := ⟨S256x512x1, .i32⟩) main_call1_v4) (TRef.of (T := ⟨S256x512x1x1, .i32⟩) main_call1_v5) rfl shapeCasts_S256x512x1_S256x512x1x1,
    TRef.nullary (TRef.of (T := ⟨S1, .i32⟩) main_call1_c_1) (constantI S1 32 2047#32),
    TRef.nullary (TRef.of (T := ⟨S_, .i32⟩) main_call1_c_2) (constantI S_ 32 0#32),
    TRef.unary (TRef.of (T := ⟨S_, .i32⟩) main_call1_c_2) (TRef.of (T := ⟨S256x512x1x1, .i32⟩) main_call1_v6) (broadcastInDim S256x512x1x1 ![] bcast_S_S256x512x1x1),
    TRef.binary (TRef.of (T := ⟨S256x512x1x1, .i32⟩) main_call1_v5) (TRef.of (T := ⟨S256x512x1x1, .i32⟩) main_call1_v6) (TRef.of (T := ⟨S256x512x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S256x512x1x1, .i32⟩) main_call1_v9) (broadcastInDim S256x512x1x1 ![0, 1, 2, 3] bcast_S1x1x1x1_S256x512x1x1_0_1_2_3),
    TRef.binary (TRef.of (T := ⟨S256x512x1x1, .i32⟩) main_call1_v5) (TRef.of (T := ⟨S256x512x1x1, .i32⟩) main_call1_v9) (TRef.of (T := ⟨S256x512x1x1, .i1⟩) main_call1_v10) (cmpi .sle),
    TRef.binary (TRef.of (T := ⟨S256x512x1x1, .i1⟩) main_call1_v7) (TRef.of (T := ⟨S256x512x1x1, .i1⟩) main_call1_v10) (TRef.of (T := ⟨S256x512x1x1, .i1⟩) main_call1_v11) andi,
    TRef.nullary (TRef.of (T := ⟨S_, .i1⟩) main_call1_c_3) (constantI S_ 1 1#1),
    TRef.binary (TRef.of (T := ⟨S256x512x1x1, .i1⟩) main_call1_v11) (TRef.of (T := ⟨S_, .i1⟩) main_call1_c_3) (TRef.of (T := ⟨S256x512x1, .i1⟩) main_call1_v12) (fun x v => Host.reduce IntOp.andi x v reducesTo_S256x512x1x1_S256x512x1_d3 h_S_),
    TRef.binary (TRef.of (T := ⟨S256x512x2048, .f32⟩) main_v6) (TRef.of (T := ⟨S256x512x1x1, .i32⟩) main_call1_v5) (TRef.of (T := ⟨S256x512x1, .f32⟩) main_call1_v13) (fun x i => Host.gather gather_S256x512x2048_S256x512x1x1_S256x512x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S256x512x1, .f32⟩) main_call1_v14) (broadcastInDim S256x512x1 ![] bcast_S_S256x512x1),
    TRef.ternary (TRef.of (T := ⟨S256x512x1, .i1⟩) main_call1_v12) (TRef.of (T := ⟨S256x512x1, .f32⟩) main_call1_v13) (TRef.of (T := ⟨S256x512x1, .f32⟩) main_call1_v14) (TRef.of (T := ⟨S256x512x1, .f32⟩) main_v8) select,
    reshape main_v8 main_v9 rfl shapeCasts_S256x512x1_S256x512,
    nullary main_cst_0 (constant S_ .f32 0x00000000#32),
    binary main_v9 main_cst_0 main_v10 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    unary main_v10 main_v11 (Host.negf : (⟨S256, .f32⟩ : BufTy).Contents (Elt F) → (⟨S256, .f32⟩ : BufTy).Contents (Elt F)),
    nullary main_cst_1 (constant S_ .f32 0x00000000#32),
    binary main_arg1 main_cst_1 main_v12 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    binary main_v11 main_v12 main_v13 (mulf : (⟨S256, .f32⟩ : BufTy).Contents (Elt F) → (⟨S256, .f32⟩ : BufTy).Contents (Elt F) → (⟨S256, .f32⟩ : BufTy).Contents (Elt F)),
    nullary main_cst_2 (constant S_ .f32 0x00000000#32),
    binary main_v13 main_cst_2 main_v14 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_3 (constant S_ .f32 0x43800000#32),
    binary main_v14 main_cst_3 main_v15 (Host.divf : (⟨S_, .f32⟩ : BufTy).Contents (Elt F) → (⟨S_, .f32⟩ : BufTy).Contents (Elt F) → (⟨S_, .f32⟩ : BufTy).Contents (Elt F)) ]

set_option maxRecDepth 8192 in
/-- The printed program is the sequence of the operations as it spells them. -/
theorem main_eq_typed (c : Dev nD) : main (F := F) c = seq opsTyped := rfl

section
attribute [local irreducible] maxOverActions
/-- The row-maximum step through typed references is the step over the buffers. -/
theorem max_step_named : (TRef.binary (TRef.of (T := ⟨S256x512x2048, .f32⟩) main_arg0) (TRef.of (T := ⟨S_, .f32⟩) main_call0_cst)
      (TRef.of (T := ⟨S256x512, .f32⟩) main_call0_v0) maxOverActions : HloOp τ sig (Elt F))
    = binary main_arg0 main_call0_cst main_call0_v0 maxOverActions := rfl
end

/-- The same with the function spelt out, as the printed program has it. -/
theorem max_step_eq : (TRef.binary (TRef.of (T := ⟨S256x512x2048, .f32⟩) main_arg0) (TRef.of (T := ⟨S_, .f32⟩) main_call0_cst)
      (TRef.of (T := ⟨S256x512, .f32⟩) main_call0_v0)
      (fun x v => Host.reduce FloatOps.maximumf x v reducesTo_S256x512x2048_S256x512_d2 h_S_) : HloOp τ sig (Elt F))
    = binary main_arg0 main_call0_cst main_call0_v0 maxOverActions :=
  (show (TRef.binary (TRef.of (T := ⟨S256x512x2048, .f32⟩) main_arg0) (TRef.of (T := ⟨S_, .f32⟩) main_call0_cst)
      (TRef.of (T := ⟨S256x512, .f32⟩) main_call0_v0)
      (fun x v => Host.reduce FloatOps.maximumf x v reducesTo_S256x512x2048_S256x512_d2 h_S_) : HloOp τ sig (Elt F))
    = TRef.binary (TRef.of (T := ⟨S256x512x2048, .f32⟩) main_arg0) (TRef.of (T := ⟨S_, .f32⟩) main_call0_cst)
      (TRef.of (T := ⟨S256x512, .f32⟩) main_call0_v0) maxOverActions from rfl).trans max_step_named

section
attribute [local irreducible] andOverUnit
theorem and_step_named : (TRef.binary (TRef.of (T := ⟨S256x512x1x1, .i1⟩) main_call1_v11) (TRef.of (T := ⟨S_, .i1⟩) main_call1_c_3)
      (TRef.of (T := ⟨S256x512x1, .i1⟩) main_call1_v12) andOverUnit : HloOp τ sig (Elt F))
    = binary main_call1_v11 main_call1_c_3 main_call1_v12 andOverUnit := rfl
end

/-- The range-test fold through typed references is the step over the buffers. -/
theorem and_step_eq : (TRef.binary (TRef.of (T := ⟨S256x512x1x1, .i1⟩) main_call1_v11) (TRef.of (T := ⟨S_, .i1⟩) main_call1_c_3)
      (TRef.of (T := ⟨S256x512x1, .i1⟩) main_call1_v12)
      (fun x v => Host.reduce IntOp.andi x v reducesTo_S256x512x1x1_S256x512x1_d3 h_S_) : HloOp τ sig (Elt F))
    = binary main_call1_v11 main_call1_c_3 main_call1_v12 andOverUnit :=
  (show (TRef.binary (TRef.of (T := ⟨S256x512x1x1, .i1⟩) main_call1_v11) (TRef.of (T := ⟨S_, .i1⟩) main_call1_c_3)
      (TRef.of (T := ⟨S256x512x1, .i1⟩) main_call1_v12)
      (fun x v => Host.reduce IntOp.andi x v reducesTo_S256x512x1x1_S256x512x1_d3 h_S_) : HloOp τ sig (Elt F))
    = TRef.binary (TRef.of (T := ⟨S256x512x1x1, .i1⟩) main_call1_v11) (TRef.of (T := ⟨S_, .i1⟩) main_call1_c_3)
      (TRef.of (T := ⟨S256x512x1, .i1⟩) main_call1_v12) andOverUnit from rfl).trans and_step_named

/-- An operation through typed references over literal buffers is the operation over the buffers: the typed
    reference only transports contents along an equation between the buffer's type and the value's, which
    for a literal buffer is the identity. One operation at a time. -/
theorem opsTyped_eq : (opsTyped : List (HloOp τ sig (Elt F))) = ops := by
  unfold opsTyped ops
  iterate 6 (refine congrArg₂ List.cons ?_ ?_; · rfl)
  refine congrArg₂ List.cons max_step_eq ?_
  iterate 11 (refine congrArg₂ List.cons ?_ ?_; · rfl)
  iterate 11 (refine congrArg₂ List.cons ?_ ?_; · rfl)
  iterate 11 (refine congrArg₂ List.cons ?_ ?_; · rfl)
  refine congrArg₂ List.cons and_step_eq ?_
  iterate 5 (refine congrArg₂ List.cons ?_ ?_; · rfl)
  iterate 5 (refine congrArg₂ List.cons ?_ ?_; · rfl)
  iterate 5 (refine congrArg₂ List.cons ?_ ?_; · rfl)
  rfl

/-- The printed program is the sequence of these operations. -/
theorem main_eq (c : Dev nD) : main (F := F) c = seq ops :=
  (main_eq_typed c).trans (congrArg seq opsTyped_eq)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨unary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., unary_bufs_sub .., nullary_bufs_sub .., binary_bufs_sub .., binary_bufs_sub .., nullary_bufs_sub .., binary_bufs_sub .., nullary_bufs_sub .., binary_bufs_sub ..⟩

set_option maxRecDepth 8192 in
set_option maxHeartbeats 2000000 in
/-- On every device, from any memory with zero counters: every weakly fair execution of the reference
    terminates with the result at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = ReadP.val_main_v15 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (by after_results_simp <;> exact ReadP.val_main_v15_eq _ _ _ _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.KernelPieces.lean ====
/-
  What one grid point leaves in the output's staging buffer, as a value.

  The kernel body has two control cases. At the first sequence tile of a batch block it stores a zero
  block, reads it back, and stores "what it read + this tile's partial"; at the other three tiles it
  reads what the tile before left and stores "that + this tile's partial". In both cases the buffer
  ends at the body's last store, whose value is one pure function (the payload) of the three input
  blocks and of the block read back: the zero block in the first case, the running block in the second.
-/
import proofs.«423830_j83013127897790_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem offs2 : (![0, 0] : Fin 2 → Nat) = fun _ => 0 := funext fun a => by fin_cases a <;> rfl
theorem offs3 : (![0, 0, 0] : Fin 3 → Nat) = fun _ => 0 := funext fun a => by fin_cases a <;> rfl

/-- A later tile of a batch block: the buffer, holding the running block `acc`, ends at the payload of the
    three input blocks and `acc` (one store covering the block; every load reads a whole buffer). -/
theorem later_tile (c : Dev nD) (i : grid0.Coords) (a2 : Memref sig .tc .vmem S8x128x2048 .f32) (h2 : a2.IsWhole)
    (a3 : Memref sig .tc .vmem S8x128 .i32) (h3 : a3.IsWhole) (a4 : Memref sig .tc .vmem S8x128 .i32) (h4 : a4.IsWhole)
    (a5 : Memref sig .tc .vmem S8x1 .f32) (h5 : a5.IsWhole) (hc : ¬cond0_0 i)
    (x0 : Vec F S8x128x2048 .f32) (x1 : Vec F S8x128 .i32) (x2 : Vec F S8x128 .i32) (acc : Vec F S8x1 .f32) :
    out0_B_3 c i a2 h2 a3 h3 a4 h4 a5 h5 hc x0 x1 x2 acc = k0_pay2 x0 x1 x2 acc := by
  unfold out0_B_3
  rw [View.read_writes_eq_canon _ _ _ (cover0_B_3 c i a2 h2 a3 h3 a4 h4 a5 h5 hc x0 x1 x2 acc)]
  unfold kernelRun0_B
  dsimp only
  sl_unfold_words
  rw [View.canon_unit_zero offs2]
  simp only [View.readAt_eq_ld, h2.read_unread, h3.read_unread, h4.read_unread, h5.read_unread,
    View.ld_unit_zero (S := S8x128x2048) offs3, View.ld_unit_zero (S := S8x128) offs2,
    View.ld_unit_zero (S := S8x1) offs2]

/-- The first tile of a batch block: the buffer ends at the payload of the three input blocks and the zero
    block the body stored first and read back. -/
theorem first_tile (c : Dev nD) (i : grid0.Coords) (a2 : Memref sig .tc .vmem S8x128x2048 .f32) (h2 : a2.IsWhole)
    (a3 : Memref sig .tc .vmem S8x128 .i32) (h3 : a3.IsWhole) (a4 : Memref sig .tc .vmem S8x128 .i32) (h4 : a4.IsWhole)
    (a5 : Memref sig .tc .vmem S8x1 .f32) (h5 : a5.IsWhole) (hc : cond0_0 i)
    (x0 : Vec F S8x128x2048 .f32) (x1 : Vec F S8x128 .i32) (x2 : Vec F S8x128 .i32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x1) offs2, View.readCov_unit_zero (S := S8x1) _ offs2]
  simp only [View.readAt_eq_ld, h2.read_unread, h3.read_unread, h4.read_unread,
    View.ld_unit_zero (S := S8x128x2048) offs3, View.ld_unit_zero (S := S8x128) offs2,
    View.ld_unit_zero (S := S8x1) offs2]

end Cert.KernelIdeal.Pieces

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.LibSoftmax.lean ====
/-
  Softmax over a finite row of real numbers, on the extended reals.

  A row s of real numbers has a real maximum M (the fold of max from -∞ over a nonempty row); every
  weight e j = exp (s j - M) is a positive real, so their sum L is a positive real; and for real values
  v j the weighted average can divide by L before or after the sum:
      ∑ j, (e j / L) · v j  =  (∑ j, e j · v j) / L.
  In ℝ this is distributivity. On [-∞, +∞] distributivity fails at the infinities, which is why every
  entry is assumed to be a real number.
-/
import proofs.«423830_j83013127897790_2_alg».proof.Proof.LibRealVariance
import Idealize.ShloMosaic.PureOps.Ideal
import Mathlib.Data.Finset.Fold
import Mathlib.Analysis.SpecialFunctions.Exp

noncomputable section

namespace Cert.Softmax

open Idealize.ShloMosaic Cert.Alg
open scoped BigOperators

/-- The f32 pattern of -∞ denotes the bottom of the extended reals. -/
theorem ofBits_neg_inf : Ideal.ofBits .f32 0xFF800000#32 = ⊥ := by simp [Ideal.ofBits, Ideal.ieee]

/-- The f32 pattern of 0.125 denotes the real 1/8. -/
theorem ofBits_eighth : Ideal.ofBits .f32 0x3E000000#32 = ((1 / 8 : ℝ) : EReal) := by
  simp [Ideal.ofBits, Ideal.ieee, -EReal.coe_mul]; norm_num

/-- The maximum of a nonempty finite row of reals, folded from -∞, is a real: it is above some entry,
    which is above -∞, and below +∞ as every entry is. -/
theorem isReal_fold_max {ι : Type*} [Fintype ι] [Nonempty ι] (s : ι → EReal) (hs : ∀ j, IsReal (s j)) :
    IsReal ((Finset.univ : Finset ι).fold max ⊥ s) := by
  rw [isReal_iff]
  constructor
  · refine ne_of_lt ?_
    rw [Finset.fold_max_lt]
    refine ⟨bot_lt_top, fun j _ => ?_⟩
    obtain ⟨r, hr⟩ := hs j
    rw [hr]; exact EReal.coe_lt_top r
  · refine ne_of_gt ?_
    rw [Finset.lt_fold_max]
    obtain ⟨j⟩ := (inferInstance : Nonempty ι)
    obtain ⟨r, hr⟩ := hs j
    exact Or.inr ⟨j, Finset.mem_univ j, by rw [hr]; exact EReal.bot_lt_coe r⟩

/-- The exponential of a difference of two reals is a positive real. -/
theorem exp_sub_pos {x M : EReal} (hx : IsReal x) (hM : IsReal M) :
    ∃ r : ℝ, 0 < r ∧ Ideal.exp (x - M) = (r : EReal) := by
  obtain ⟨a, rfl⟩ := hx
  obtain ⟨b, rfl⟩ := hM
  refine ⟨Real.exp (a - b), Real.exp_pos _, ?_⟩
  rw [← EReal.coe_sub, Ideal.exp_coe]

/-- THE LAW. For positive real weights e and real values v over a nonempty finite row, normalising
    each weight by the total before the weighted sum equals normalising the weighted sum by the total. -/
theorem sum_div_mul_eq_div_sum {ι : Type*} [Fintype ι] [Nonempty ι] (e v : ι → EReal)
    (he : ∀ j, ∃ r : ℝ, 0 < r ∧ e j = (r : EReal)) (hv : ∀ j, IsReal (v j)) :
    ∑ j, Ideal.div (e j) (∑ j, e j) * v j = Ideal.div (∑ j, e j * v j) (∑ j, e j) := by
  choose r hr using he
  choose w hw using hv
  obtain rfl : e = fun j => (r j : EReal) := funext fun j => (hr j).2
  obtain rfl : v = fun j => (w j : EReal) := funext hw
  have hl : (0 : ℝ) < ∑ j, r j := Finset.sum_pos (fun j _ => (hr j).1) Finset.univ_nonempty
  rw [← coe_finset_sum]
  simp only [Ideal.div_coe hl.ne', ← EReal.coe_mul]
  rw [← coe_finset_sum, ← coe_finset_sum, ← EReal.coe_mul]
  congr 1
  rw [Finset.sum_mul]
  exact Finset.sum_congr rfl fun j _ => by ring

end Cert.Softmax

end
-- ==== Proof.RowTerm.lean ====
/-
  One position's term of the policy-gradient loss, on the extended reals, and the two laws the
  comparison of the two programs rests on.

  A position (b, s) has a row x of 2048 logits, a chosen action k and a weight w (one minus the
  terminal flag). With M the row's maximum, its term is
      ((x k − M) − log (∑ a, exp (x a − M))) · w,
  the chosen action's log-probability under the softmax of the row, masked.

  * Picking: the sum over the row of "x a − M where a is the chosen action, else 0" is the entry at the
    chosen action (a sum with one nonzero term; adding zeros is exact on the extended reals).
  * Regrouping: a row of 512 real terms, summed 128 at a time, each partial sum negated as 0 − S and the
    four added one after the other onto 0, is the negation of the whole sum. With an infinity among the
    partial sums the two sides can differ (+∞ and −∞ do not cancel), which is why the terms are shown real.
-/
import proofs.«423830_j83013127897790_2_alg».proof.Proof.LibSoftmax
import Idealize.ShloMosaic.PureOps.Ideal
import Mathlib.Logic.Equiv.Fin.Basic
import Mathlib.Analysis.SpecialFunctions.Log.Basic

noncomputable section

namespace Cert.Loss

open Idealize.ShloMosaic Cert.Alg Cert.Softmax
open scoped BigOperators

/-- A row's maximum, folded from −∞. -/
def rowMax (x : Fin 2048 → EReal) : EReal := (Finset.univ : Finset (Fin 2048)).fold max ⊥ x

/-- A row's log-sum-exp after the shift by its maximum. -/
def rowLse (x : Fin 2048 → EReal) : EReal := Ideal.log (∑ a : Fin 2048, Ideal.exp (x a - rowMax x))

/-- The term of one position: the chosen action's shifted logit less the log-sum-exp, times the weight. -/
def rowTerm (x : Fin 2048 → EReal) (k : Fin 2048) (w : EReal) : EReal := ((x k - rowMax x) - rowLse x) * w

/-- The maximum of a row of reals is a real. -/
theorem isReal_rowMax (x : Fin 2048 → EReal) (hx : ∀ a, IsReal (x a)) : IsReal (rowMax x) :=
  isReal_fold_max x hx

/-- The sum of the shifted exponentials of a row of reals is a positive real (2048 positive reals). -/
theorem sum_exp_pos (x : Fin 2048 → EReal) (hx : ∀ a, IsReal (x a)) :
    ∃ r : ℝ, 0 < r ∧ (∑ a : Fin 2048, Ideal.exp (x a - rowMax x)) = (r : EReal) := by
  have h := fun a => exp_sub_pos (hx a) (isReal_rowMax x hx)
  choose e he using h
  refine ⟨∑ a, e a, Finset.sum_pos (fun a _ => (he a).1) Finset.univ_nonempty, ?_⟩
  rw [coe_finset_sum]
  exact Finset.sum_congr rfl fun a _ => (he a).2

/-- So the log-sum-exp of a row of reals is a real. -/
theorem isReal_rowLse (x : Fin 2048 → EReal) (hx : ∀ a, IsReal (x a)) : IsReal (rowLse x) := by
  obtain ⟨r, hr, h⟩ := sum_exp_pos x hx
  unfold rowLse
  rw [h, Ideal.log_coe, if_neg (not_le.mpr hr)]
  exact IsReal.coe _

/-- And the term of a position with real logits and a real weight is a real. -/
theorem isReal_rowTerm (x : Fin 2048 → EReal) (k : Fin 2048) (w : EReal) (hx : ∀ a, IsReal (x a))
    (hw : IsReal w) : IsReal (rowTerm x k w) :=
  (((hx k).sub (isReal_rowMax x hx)).sub (isReal_rowLse x hx)).mul hw

/-- PICKING. A sum over the row whose only nonzero term sits at k is that term. -/
theorem sum_pick (f : Fin 2048 → EReal) (k : Fin 2048) :
    (∑ a : Fin 2048, if a = k then f a else 0) = f k := by
  rw [Finset.sum_ite_eq' Finset.univ k f]
  simp

/-- Row s = 128 j + l of the 512 positions of a batch row, as tile j and lane l. -/
def tileEquiv : Fin 4 × Fin 128 ≃ Fin 512 := finProdFinEquiv

theorem tileEquiv_val (j : Fin 4) (l : Fin 128) : (tileEquiv (j, l)).val = 128 * j.val + l.val := by
  show l.val + 128 * j.val = 128 * j.val + l.val
  exact Nat.add_comm _ _

/-- REGROUPING. For 512 real terms, the four tiles' partial sums, each negated as 0 − S and added in turn
    onto 0, make the negation of the whole sum taken from 0. -/
theorem chain_eq_neg_sum (c : Fin 512 → EReal) (hc : ∀ s, IsReal (c s)) :
    (((((0 : EReal) + (0 - ∑ l : Fin 128, c (tileEquiv (0, l)))) + (0 - ∑ l : Fin 128, c (tileEquiv (1, l))))
        + (0 - ∑ l : Fin 128, c (tileEquiv (2, l)))) + (0 - ∑ l : Fin 128, c (tileEquiv (3, l))))
      = -(0 + ∑ s : Fin 512, c s) := by
  choose r hr using hc
  obtain rfl : c = fun s => (r s : EReal) := funext hr
  rw [← sum_regroup tileEquiv (fun s => ((r s : ℝ) : EReal)), Fin.sum_univ_four]
  simp only [← coe_finset_sum, ← EReal.coe_zero, ← EReal.coe_sub, ← EReal.coe_add, ← EReal.coe_neg]
  congr 1
  ring

end Cert.Loss

end
-- ==== Proof.TileLayout.lean ====
/-
  The tile's vectors read at an entry.

  Inside one grid point the kernel works on a tile of 8 batch rows by 128 positions by 2048 actions. Its
  per-position quantities (the row maximum, the log-sum-exp) are [8,128] matrices that it views as
  [8,128,1] columns, broadcasts along the 2048 actions, and views back; the per-row partial is an [8]
  vector viewed as an [8,1] column. Each such view or broadcast, read at an entry, is the operand read at
  the entry with the unit axis dropped or set to 0. Each reduction over the last axis, read at an entry, is
  the fold or the sum over that axis's 2048 (or 128) coordinates of the operand's row.
-/
import proofs.«423830_j83013127897790_2_alg».proof.Proof.RowTerm
import Idealize.ShloMosaic.Lib.Pipeline.Value
import Idealize.ShloMosaic.Lib.ValueIdx
import Idealize.ShloMosaic.PureOps.Ideal.Laws

noncomputable section

namespace Cert.Loss.Tile

open Idealize.ShloMosaic Idealize.ShloMosaic.ValueIdx Cert.Softmax
open scoped BigOperators

/-- The tile's shapes. -/
abbrev T3 : Shape := ⟨3, ![8, 128, 2048]⟩
abbrev T2 : Shape := ⟨2, ![8, 128]⟩
abbrev T21 : Shape := ⟨3, ![8, 128, 1]⟩
abbrev T1 : Shape := ⟨1, ![8]⟩
abbrev T11 : Shape := ⟨2, ![8, 1]⟩

variable {α : Type}

/-- A matrix viewed as a column block: entry (r, l, 0) is entry (r, l). -/
theorem keepdims_apply (v : T2.Idx → α) (h : T2.ShapeCasts T21) (r : Fin 8) (l : Fin 128) :
    shapeCast T21 v h (ix3 r l 0) = v (ix2 r l) :=
  shapeCast_apply v h (ix3 r l 0) (ix2 r l) (by
    rw [Shape.rowMajor_val_two, Shape.rowMajor_val_three]
    show r.val * 128 + l.val = (r.val * 128 + l.val) * 1 + 0
    omega)

/-- A column block broadcast along the actions: entry (r, l, a) is entry (r, l, 0). -/
theorem lanes_apply (v : T21.Idx → α) (h : T21.Broadcasts T3) (r : Fin 8) (l : Fin 128) (a : Fin 2048) :
    broadcastTo T3 v h (ix3 r l a) = v (ix3 r l 0) :=
  broadcastTo_apply v h (ix3 r l a) (ix3 r l 0) (fun d => by
    match d with
    | ⟨0, _⟩ => rfl
    | ⟨1, _⟩ => rfl
    | ⟨2, _⟩ => rfl)

/-- A column block viewed back as a matrix: entry (r, l) is entry (r, l, 0). -/
theorem squeeze_apply (v : T21.Idx → α) (h : T21.ShapeCasts T2) (r : Fin 8) (l : Fin 128) :
    shapeCast T2 v h (ix2 r l) = v (ix3 r l 0) :=
  shapeCast_apply v h (ix2 r l) (ix3 r l 0) (by
    rw [Shape.rowMajor_val_two, Shape.rowMajor_val_three]
    show (r.val * 128 + l.val) * 1 + 0 = r.val * 128 + l.val
    omega)

/-- A vector viewed as a column: entry (r, 0) is entry r. -/
theorem column_apply (v : T1.Idx → α) (h : T1.ShapeCasts T11) (r : Fin 8) :
    shapeCast T11 v h (ix2 r 0) = v (ix1 r) :=
  shapeCast_apply v h (ix2 r 0) (ix1 r) (by
    rw [Shape.rowMajor_val_one, Shape.rowMajor_val_two]
    show r.val = r.val * 1 + 0
    omega)

/-- The index (r, l) with the action a put back on the reduced axis is (r, l, a). -/
theorem lift_actions (h : T3.Reduces [2] T2) (r : Fin 8) (l : Fin 128) (a : Fin 2048) :
    h.lift (ix2 r l) a = ix3 r l a := by
  funext d
  apply Fin.ext
  match d with
  | ⟨0, _⟩ => rfl
  | ⟨1, _⟩ => rfl
  | ⟨2, _⟩ => rfl

/-- The index r with the position l put back on the reduced axis is (r, l). -/
theorem lift_positions (h : T2.Reduces [1] T1) (r : Fin 8) (l : Fin 128) :
    h.lift (ix1 r) l = ix2 r l := by
  funext d
  apply Fin.ext
  match d with
  | ⟨0, _⟩ => rfl
  | ⟨1, _⟩ => rfl

/-- The maximum over the actions from −∞, at position (r, l), is the row's maximum. -/
theorem max_actions_apply (x : FVec Ideal T3 .f32) (h : T3.Reduces [2] T2) (hφ : FKind.Formats .f32)
    (hacc : (0xFF800000#32 : BitVec 32) = 0xFF800000#32) (r : Fin 8) (l : Fin 128) :
    multiReduction .maximumf [2] T2 x 0xFF800000#32 h hφ hacc (ix2 r l)
      = Cert.Loss.rowMax (fun a => x (ix3 r l a)) := by
  refine (Ideal.multiReduction_maximumf_single x 0xFF800000#32 h hφ hacc (ix2 r l)).trans ?_
  show (Finset.univ : Finset (Fin 2048)).fold max (Ideal.ofBits .f32 0xFF800000#32) (fun a => x (h.lift (ix2 r l) a)) = _
  rw [ofBits_neg_inf]
  exact congrArg (fun f : Fin 2048 → EReal => (Finset.univ : Finset (Fin 2048)).fold max ⊥ f)
    (funext fun a => congrArg x (lift_actions h r l a))

/-- The sum over the actions, at position (r, l), is the sum of the row. -/
theorem sum_actions_apply (x : FVec Ideal T3 .f32) (h : T3.Reduces [2] T2) (hφ : FKind.Formats .f32)
    (hacc : (0x00000000#32 : BitVec 32) = 0x00000000#32) (r : Fin 8) (l : Fin 128) :
    multiReduction .add [2] T2 x 0x00000000#32 h hφ hacc (ix2 r l) = ∑ a : Fin 2048, x (ix3 r l a) := by
  refine (Ideal.multiReduction_add_single x 0x00000000#32 h hφ hacc (ix2 r l)).trans ?_
  show (∑ a : Fin 2048, x (h.lift (ix2 r l) a)) = _
  exact Finset.sum_congr rfl fun a _ => congrArg x (lift_actions h r l a)

/-- The sum over the positions, at row r, is the sum of the row's 128 entries. -/
theorem sum_positions_apply (x : FVec Ideal T2 .f32) (h : T2.Reduces [1] T1) (hφ : FKind.Formats .f32)
    (hacc : (0x00000000#32 : BitVec 32) = 0x00000000#32) (r : Fin 8) :
    multiReduction .add [1] T1 x 0x00000000#32 h hφ hacc (ix1 r) = ∑ l : Fin 128, x (ix2 r l) := by
  refine (Ideal.multiReduction_add_single x 0x00000000#32 h hφ hacc (ix1 r)).trans ?_
  show (∑ l : Fin 128, x (h.lift (ix1 r) l)) = _
  exact Finset.sum_congr rfl fun l _ => congrArg x (lift_positions h r l)

end Cert.Loss.Tile

end
-- ==== Proof.KernelPayload.lean ====
/-
  The value the kernel stores at one grid point, read at an entry.

  The stored block is [8,1]: for each of the tile's 8 batch rows, what the output block held before plus
  "0 − the sum over the tile's 128 positions of the position's term". A position's term is computed from
  its row x of 2048 logits as
      ((∑ a, (x a − max x  if  a is the chosen action  else 0)) − log ∑ a, exp (x a − max x)) · (1 − terminal).
  Here each of the tile's intermediate vectors is read at an entry through the views and broadcasts that
  carry it, and the stored value is assembled from them.
-/
import proofs.«423830_j83013127897790_2_alg».proof.Proof.Gen.KernelIdeal.Skeleton
import proofs.«423830_j83013127897790_2_alg».proof.Proof.TileLayout

noncomputable section

namespace Cert.KernelIdeal.Payload

open Idealize.ShloMosaic Idealize.ShloMosaic.ValueIdx
open Cert.KernelIdeal Cert.KernelIdeal.Gen Cert.Loss Cert.Loss.Tile
open scoped BigOperators

/-- A position's term as the kernel computes it: the chosen action found by comparing every action's number
    with the action word, the other actions contributing the zero word's value. -/
def posTerm (x : Fin 2048 → EReal) (act trm : BitVec 32) : EReal :=
  ((∑ a : Fin 2048, Scalar.select (IntOp.cmpi .eq (BitVec.ofNat 32 a.val) act) (x a - rowMax x)
        (Ideal.ofBits .f32 0x00000000#32)) - rowLse x)
    * (Ideal.ofBits .f32 0x3F800000#32 - ((trm.toInt : ℝ) : EReal))

/-- The tile's logits less each position's row maximum. -/
abbrev shifted (x0 : FVec Ideal S8x128x2048 .f32) : FVec Ideal S8x128x2048 .f32 :=
  subf x0 (broadcastTo S8x128x2048
    (shapeCast S8x128x1 (multiReduction .maximumf [2] S8x128 x0 0xFF800000#32 reduces_S8x128x2048_S8x128 (.inl rfl) rfl)
      shapeCasts_S8x128_S8x128x1) broadcasts_S8x128x1_S8x128x2048)

theorem shifted_apply (x0 : FVec Ideal S8x128x2048 .f32) (r : Fin 8) (l : Fin 128) (a : Fin 2048) :
    shifted x0 (ix3 r l a) = x0 (ix3 r l a) - rowMax (fun a => x0 (ix3 r l a)) := by
  show x0 (ix3 r l a) - broadcastTo S8x128x2048 _ broadcasts_S8x128x1_S8x128x2048 (ix3 r l a) = _
  rw [lanes_apply, keepdims_apply, max_actions_apply]

/-- Each position's log-sum-exp of its shifted row, as an [8,128] matrix. -/
abbrev lse (x0 : FVec Ideal S8x128x2048 .f32) : FVec Ideal S8x128 .f32 :=
  shapeCast S8x128 (log (shapeCast S8x128x1
    (multiReduction .add [2] S8x128 (exp (shifted x0)) 0x00000000#32 reduces_S8x128x2048_S8x128 (.inl rfl) rfl)
      shapeCasts_S8x128_S8x128x1)) shapeCasts_S8x128x1_S8x128

theorem lse_apply (x0 : FVec Ideal S8x128x2048 .f32) (r : Fin 8) (l : Fin 128) :
    lse x0 (ix2 r l) = rowLse (fun a => x0 (ix3 r l a)) := by
  unfold lse
  rw [squeeze_apply]
  show Ideal.log (shapeCast S8x128x1 _ shapeCasts_S8x128_S8x128x1 (ix3 r l 0)) = _
  rw [keepdims_apply, sum_actions_apply]
  unfold rowLse
  refine congrArg Ideal.log (Finset.sum_congr rfl fun a _ => ?_)
  show Ideal.exp (shifted x0 (ix3 r l a)) = _
  rw [shifted_apply]

/-- Each position's chosen shifted logit, found by the compare-select-sum over the actions. -/
abbrev chosen (x0 : FVec Ideal S8x128x2048 .f32) (x1 : IVec S8x128 32) : FVec Ideal S8x128 .f32 :=
  multiReduction .add [2] S8x128
    (select (cmpi .eq (iota .tc S8x128x2048 32 [2] iota_S8x128x2048_d2_w32)
        (broadcastTo S8x128x2048 (shapeCast S8x128x1 x1 shapeCasts_S8x128_S8x128x1) broadcasts_S8x128x1_S8x128x2048))
      (shifted x0) (broadcast S8x128x2048 (Scalar.ofBits (F := Ideal) .f32 0x00000000#32)))
    0x00000000#32 reduces_S8x128x2048_S8x128 (.inl rfl) rfl

theorem chosen_apply (x0 : FVec Ideal S8x128x2048 .f32) (x1 : IVec S8x128 32) (r : Fin 8) (l : Fin 128) :
    chosen x0 x1 (ix2 r l)
      = ∑ a : Fin 2048, Scalar.select (IntOp.cmpi .eq (BitVec.ofNat 32 a.val) (x1 (ix2 r l)))
          (x0 (ix3 r l a) - rowMax (fun a => x0 (ix3 r l a))) (Ideal.ofBits .f32 0x00000000#32) := by
  unfold chosen
  rw [sum_actions_apply]
  refine Finset.sum_congr rfl fun a _ => ?_
  show Scalar.select (IntOp.cmpi .eq (iota .tc S8x128x2048 32 [2] iota_S8x128x2048_d2_w32 (ix3 r l a))
      (broadcastTo S8x128x2048 (shapeCast S8x128x1 x1 shapeCasts_S8x128_S8x128x1) broadcasts_S8x128x1_S8x128x2048 (ix3 r l a)))
      (shifted x0 (ix3 r l a)) (Ideal.ofBits .f32 0x00000000#32) = _
  rw [iota_single_apply, lanes_apply, keepdims_apply, shifted_apply]

/-- The stored block is the block read back plus "0 − the per-row sums of the positions' terms". -/
theorem pay2_eq (x0 : Vec Ideal S8x128x2048 .f32) (x1 x2 : Vec Ideal S8x128 .i32) (acc : Vec Ideal S8x1 .f32) :
    k0_pay2 (F := Ideal) x0 x1 x2 acc
      = addf (shapeCast S8x1 acc shapeCasts_S8x1_S8x1)
          (subf (broadcast S8x1 (Scalar.ofBits (F := Ideal) .f32 0x00000000#32))
            (shapeCast S8x1
              (multiReduction .add [1] S8
                (mulf (subf (chosen x0 x1) (lse x0))
                  (subf (broadcast S8x128 (Scalar.ofBits (F := Ideal) .f32 0x3F800000#32)) (sitofp .f32 x2)))
                0x00000000#32 reduces_S8x128_S8 (.inl rfl) rfl)
              shapeCasts_S8_S8x1)) := rfl

/-- THE PAYLOAD AT A ROW: entry (r, 0) of the stored block. -/
theorem pay2_apply (x0 : Vec Ideal S8x128x2048 .f32) (x1 x2 : Vec Ideal S8x128 .i32) (acc : Vec Ideal S8x1 .f32)
    (r : Fin 8) :
    k0_pay2 (F := Ideal) x0 x1 x2 acc (ix2 r 0)
      = acc (ix2 r 0) + (Ideal.ofBits .f32 0x00000000#32
          - ∑ l : Fin 128, posTerm (fun a => x0 (ix3 r l a)) (x1 (ix2 r l)) (x2 (ix2 r l))) := by
  rw [pay2_eq]
  show shapeCast S8x1 acc shapeCasts_S8x1_S8x1 (ix2 r 0)
      + (Ideal.ofBits .f32 0x00000000#32 - shapeCast S8x1 _ shapeCasts_S8_S8x1 (ix2 r 0)) = _
  rw [shapeCast_self, column_apply, sum_positions_apply]
  refine congrArg (acc (ix2 r 0) + ·) (congrArg (Ideal.ofBits .f32 0x00000000#32 - ·) (Finset.sum_congr rfl fun l _ => ?_))
  show (chosen x0 x1 (ix2 r l) - lse x0 (ix2 r l))
      * (Ideal.ofBits .f32 0x3F800000#32 - (((x2 (ix2 r l)).toInt : ℝ) : EReal)) = _
  rw [chosen_apply, lse_apply]
  rfl

/-- The zero block the first tile stores, at a row. -/
theorem pay1_apply (r : Fin 8) : k0_pay1 (F := Ideal) (ix2 r 0) = Ideal.ofBits .f32 0x00000000#32 := rfl

end Cert.KernelIdeal.Payload

end
-- ==== Proof.KernelValue.lean ====
/-
  What the kernel's output array holds after the run.

  The grid has 32 batch blocks by 4 sequence tiles; point t = 4 i + j works on batch rows 8 i … 8 i + 7 and
  positions 128 j … 128 j + 127, and the output block of batch block i is written back once, after its fourth
  tile. Over the four tiles the block's row r accumulates
      (((0 + (0 − S₀)) + (0 − S₁)) + (0 − S₂)) + (0 − S₃),
  Sⱼ the sum of the terms of row 8 i + r's positions in tile j. So entry (b, 0) of the output array is that
  chain for batch row b.
-/
import proofs.«423830_j83013127897790_2_alg».proof.Proof.Gen.KernelIdeal.Frame
import proofs.«423830_j83013127897790_2_alg».proof.Proof.KernelPieces
import proofs.«423830_j83013127897790_2_alg».proof.Proof.KernelPayload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.RowValue

open Cert.KernelIdeal Cert.KernelIdeal.Gen Cert.KernelIdeal.Payload Cert.Loss
open scoped BigOperators

variable (m : (ℓ : Loc nD τ sig) → Buf (Elt Ideal) ℓ) (ρ : Dev nD → PrngReg)

theorem points : cfg0.N = 128 := N_0

/-- Grid point (i, j): batch block i, sequence tile j. -/
def pt (i : Fin 32) (j : Fin 4) : Fin cfg0.N :=
  ⟨4 * i.val + j.val, by have := i.isLt; have := j.isLt; rw [points]; omega⟩

/-- Batch row r of batch block i. -/
def row (i : Fin 32) (r : Fin 8) : Fin 256 := ⟨8 * i.val + r.val, by have := i.isLt; have := r.isLt; omega⟩

/-- The three argument arrays as the region finds them, at their literal types. -/
abbrev logits (c : Dev nD) : FVec Ideal S256x512x2048 .f32 := V m c main_arg0
abbrev actions (c : Dev nD) : IVec S256x512 32 := V m c main_arg2
abbrev terminals (c : Dev nD) : IVec S256x512 32 := V m c main_arg3

/-- The three input blocks of a point, at their literal types. -/
abbrev blk0 (c : Dev nD) (t : Fin cfg0.N) : Vec Ideal S8x128x2048 .f32 := iblk m c 0 t
abbrev blk1 (c : Dev nD) (t : Fin cfg0.N) : Vec Ideal S8x128 .i32 := iblk m c 1 t
abbrev blk2 (c : Dev nD) (t : Fin cfg0.N) : Vec Ideal S8x128 .i32 := iblk m c 2 t

/-- The printed index maps, decided over the grid: point t is batch block t / 4 and sequence tile t % 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = 0 :=
  (by decide +kernel : ∀ t : Fin grid0.N, _)

/-- The logits block of point (i, j) at (r, l, a) is the logits array at (8 i + r, 128 j + l, a). -/
theorem blk0_apply (c : Dev nD) (i : Fin 32) (j : Fin 4) (r : Fin 8) (l : Fin 128) (a : Fin 2048) :
    blk0 m c (pt i j) (ix3 r l a) = logits m c (ix3 (row i r) (tileEquiv (j, l)) a) := by
  obtain ⟨e0, e1, e2, -⟩ := idx_facts (pt i j)
  have hi := i.isLt; have hj := j.isLt
  show iblk m c 0 (pt i j) (ix3 r l a) = _
  unfold iblk
  rw [View.read_apply]
  show V m c main_arg0 _ = V m c main_arg0 _
  congr 1
  funext d
  apply Fin.ext
  match d with
  | ⟨0, _⟩ =>
    show win0_0.index (pt i j) (0 : Fin 3) * 8 + 1 * r.val = 8 * i.val + r.val
    rw [e0]; show (4 * i.val + j.val) / 4 * 8 + 1 * r.val = _; omega
  | ⟨1, _⟩ =>
    show win0_0.index (pt i j) (1 : Fin 3) * 128 + 1 * l.val = (tileEquiv (j, l)).val
    rw [e1, tileEquiv_val]; show (4 * i.val + j.val) % 4 * 128 + 1 * l.val = _; omega
  | ⟨2, _⟩ =>
    show win0_0.index (pt i j) (2 : Fin 3) * 2048 + 1 * a.val = a.val
    rw [e2]; omega

/-- The actions block of point (i, j) at (r, l) is the actions array at (8 i + r, 128 j + l). -/
theorem blk1_apply (c : Dev nD) (i : Fin 32) (j : Fin 4) (r : Fin 8) (l : Fin 128) :
    blk1 m c (pt i j) (ix2 r l) = actions m c (ix2 (row i r) (tileEquiv (j, l))) := by
  obtain ⟨-, -, -, e0, e1, -⟩ := idx_facts (pt i j)
  have hi := i.isLt; have hj := j.isLt
  show iblk m c 1 (pt i j) (ix2 r l) = _
  unfold iblk
  rw [View.read_apply]
  show V m c main_arg2 _ = V m c main_arg2 _
  congr 1
  funext d
  apply Fin.ext
  match d with
  | ⟨0, _⟩ =>
    show win0_1.index (pt i j) (0 : Fin 2) * 8 + 1 * r.val = 8 * i.val + r.val
    rw [e0]; show (4 * i.val + j.val) / 4 * 8 + 1 * r.val = _; omega
  | ⟨1, _⟩ =>
    show win0_1.index (pt i j) (1 : Fin 2) * 128 + 1 * l.val = (tileEquiv (j, l)).val
    rw [e1, tileEquiv_val]; show (4 * i.val + j.val) % 4 * 128 + 1 * l.val = _; omega

/-- The terminals block of point (i, j) at (r, l) is the terminals array at (8 i + r, 128 j + l). -/
theorem blk2_apply (c : Dev nD) (i : Fin 32) (j : Fin 4) (r : Fin 8) (l : Fin 128) :
    blk2 m c (pt i j) (ix2 r l) = terminals m c (ix2 (row i r) (tileEquiv (j, l))) := by
  obtain ⟨-, -, -, -, -, e0, e1, -⟩ := idx_facts (pt i j)
  have hi := i.isLt; have hj := j.isLt
  show iblk m c 2 (pt i j) (ix2 r l) = _
  unfold iblk
  rw [View.read_apply]
  show V m c main_arg3 _ = V m c main_arg3 _
  congr 1
  funext d
  apply Fin.ext
  match d with
  | ⟨0, _⟩ =>
    show win0_2.index (pt i j) (0 : Fin 2) * 8 + 1 * r.val = 8 * i.val + r.val
    rw [e0]; show (4 * i.val + j.val) / 4 * 8 + 1 * r.val = _; omega
  | ⟨1, _⟩ =>
    show win0_2.index (pt i j) (1 : Fin 2) * 128 + 1 * l.val = (tileEquiv (j, l)).val
    rw [e1, tileEquiv_val]; show (4 * i.val + j.val) % 4 * 128 + 1 * l.val = _; omega

/-- The sum of the terms of batch row b's positions in sequence tile j. -/
def tileSum (c : Dev nD) (b : Fin 256) (j : Fin 4) : EReal :=
  ∑ l : Fin 128, posTerm (fun a => logits m c (ix3 b (tileEquiv (j, l)) a))
    (actions m c (ix2 b (tileEquiv (j, l)))) (terminals m c (ix2 b (tileEquiv (j, l))))

/-- Batch row b's accumulated value after its four tiles. -/
def rowVal (c : Dev nD) (b : Fin 256) : EReal :=
  (((Ideal.ofBits .f32 0x00000000#32 + (Ideal.ofBits .f32 0x00000000#32 - tileSum m c b 0))
      + (Ideal.ofBits .f32 0x00000000#32 - tileSum m c b 1))
      + (Ideal.ofBits .f32 0x00000000#32 - tileSum m c b 2))
      + (Ideal.ofBits .f32 0x00000000#32 - tileSum m c b 3)

/-- One tile's step at a row: the payload on point (i, j)'s blocks adds "0 − the tile's sum" to what was there. -/
theorem step (c : Dev nD) (i : Fin 32) (j : Fin 4) (acc : Vec Ideal S8x1 .f32) (r : Fin 8) :
    k0_pay2 (F := Ideal) (blk0 m c (pt i j)) (blk1 m c (pt i j)) (blk2 m c (pt i j)) acc (ix2 r 0)
      = acc (ix2 r 0) + (Ideal.ofBits .f32 0x00000000#32 - tileSum m c (row i r) j) := by
  rw [pay2_apply]
  refine congrArg (acc (ix2 r 0) + ·) (congrArg (Ideal.ofBits .f32 0x00000000#32 - ·) (Finset.sum_congr rfl fun l _ => ?_))
  rw [blk1_apply, blk2_apply]
  exact congrArg (fun x => posTerm x _ _) (funext fun a => blk0_apply m c i j r l a)

/-- The running output block depends on the point only through its number. -/
theorem outsAt0_congr (c : Dev nD) {n n' : ℕ} (h : n < cfg0.N) (h' : n' < cfg0.N) (e : n = n') :
    outsAt0 m c n h = outsAt0 m c n' h' := by
  subst e; rfl

/-- After the first tile of batch block i the output block is the payload over the zero block. -/
theorem outs_first (c : Dev nD) (i : Fin 32) :
    outsAt0 m c (pt i 0).val (pt i 0).isLt
      = k0_pay2 (F := Ideal) (blk0 m c (pt i 0)) (blk1 m c (pt i 0)) (blk2 m c (pt i 0)) (k0_pay1 (F := Ideal)) := by
  have h0 : (pt i 0).val % 4 = 0 := by show (4 * i.val + 0) % 4 = 0; omega
  exact (outsAt0_A m c (pt i 0) h0).trans
    (Pieces.first_tile (F := Ideal) c (grid0.coords (pt i 0)) (ms0_0 (pt i 0)) (hs0_0 (pt i 0)) (ms0_1 (pt i 0)) (hs0_1 (pt i 0))
      (ms0_2 (pt i 0)) (hs0_2 (pt i 0)) (ms0_3 (pt i 0)) (hs0_3 (pt i 0)) ((hcond0_0 (pt i 0)).mpr h0)
      (blk0 m c (pt i 0)) (blk1 m c (pt i 0)) (blk2 m c (pt i 0)))

/-- After a later tile j + 1 it is the payload over what tile j left. -/
theorem outs_next (c : Dev nD) (i : Fin 32) (j : Fin 4) (j' : Fin 4) (hj : j'.val = j.val + 1) :
    outsAt0 m c (pt i j').val (pt i j').isLt
      = k0_pay2 (F := Ideal) (blk0 m c (pt i j')) (blk1 m c (pt i j')) (blk2 m c (pt i j'))
          (outsAt0 m c (pt i j).val (pt i j).isLt) := by
  have hB : ¬(pt i j').val % 4 = 0 := by
    have := j.isLt; have := j'.isLt
    show ¬(4 * i.val + j'.val) % 4 = 0; omega
  have hp : (pt i j').val - 1 = (pt i j).val := by
    show 4 * i.val + j'.val - 1 = 4 * i.val + j.val; omega
  rw [outsAt0_B m c (pt i j') hB,
    outsAt0_congr m c (Nat.lt_of_le_of_lt (Nat.sub_le _ _) (pt i j').isLt) (pt i j).isLt hp]
  exact Pieces.later_tile (F := Ideal) c (grid0.coords (pt i j')) (ms0_0 (pt i j')) (hs0_0 (pt i j')) (ms0_1 (pt i j')) (hs0_1 (pt i j'))
      (ms0_2 (pt i j')) (hs0_2 (pt i j')) (ms0_3 (pt i j')) (hs0_3 (pt i j')) (fun h => hB ((hcond0_0 (pt i j')).mp h))
      (blk0 m c (pt i j')) (blk1 m c (pt i j')) (blk2 m c (pt i j')) (outsAt0 m c (pt i j).val (pt i j).isLt)

/-- After its fourth tile, row r of batch block i's output block is batch row 8 i + r's accumulated value. -/
theorem outs_last (c : Dev nD) (i : Fin 32) (r : Fin 8) :
    outsAt0 m c (pt i 3).val (pt i 3).isLt (ix2 r 0) = rowVal m c (row i r) := by
  rw [outs_next m c i 2 3 rfl, step, outs_next m c i 1 2 rfl, step, outs_next m c i 0 1 rfl, step, outs_first, step,
    pay1_apply]
  rfl

/-- The output array: entry (b, 0) is batch row b's accumulated value. -/
def G (c : Dev nD) : Vec Ideal S256x1 .f32 := fun y => rowVal m c ⟨(y 0).val, (y 0).isLt⟩

/-- An index of the output array is in point t's block iff each coordinate is in the block's range. -/
theorem mem_blk (t : Fin cfg0.N) (y : S256x1.Idx) :
    y ∈ ((cfg0.win 3).blk t).view.set ↔ ∀ a : Fin 2, win0_3.index t a * S8x1.size a ≤ (y a).val ∧ (y a).val < win0_3.index t a * S8x1.size a + S8x1.size a := by
  show y ∈ ((View.whole main_v0).slice (win0_3.rect t)).set ↔ _
  rw [View.set_slice_whole, Rect.mem_set_unit]
  exact Iff.rfl

/-- What a flushing point writes back is its block of the output array's function. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  have hN : t.val < 128 := lt_of_lt_of_eq t.isLt (points)
  obtain ⟨i, rfl⟩ : ∃ i : Fin 32, t = pt i 3 :=
    ⟨⟨t.val / 4, by omega⟩, Fin.ext (by show t.val = 4 * (t.val / 4) + 3; omega)⟩
  obtain ⟨-, -, -, -, -, -, -, e0, e1⟩ := idx_facts (pt i 3)
  show (cfg0.win 3).cut (grid0.coords (pt i 3)) ((dats m 0 c).after 3 (pt i 3)) = _
  rw [after0_3]
  funext y
  show outsAt0 m c (pt i 3).val (pt i 3).isLt y = G m c (((cfg0.win 3).blk (pt i 3)).view.emb y)
  have hy0 : (y 0).val < 8 := (y 0).isLt
  have hy1 : (y 1).val < 1 := (y 1).isLt
  have ey : y = ix2 (⟨(y 0).val, hy0⟩ : Fin 8) (0 : Fin 1) := by
    funext d
    apply Fin.ext
    match d with
    | ⟨0, _⟩ => rfl
    | ⟨1, _⟩ => show (y 1).val = 0; omega
  rw [ey, outs_last]
  show rowVal m c _ = rowVal m c _
  congr 1
  apply Fin.ext
  show 8 * i.val + (y 0).val = win0_3.index (pt i 3) (0 : Fin 2) * 8 + 1 * (y 0).val
  rw [e0]
  have := i.isLt
  show _ = (4 * i.val + 3) / 4 * 8 + 1 * (y 0).val
  omega

/-- Every entry of the output array is in the block of a flushing point: row b in batch block b / 8's. -/
theorem cover (c : Dev nD) (y : S256x1.Idx) :
    ∃ t : Fin cfg0.N, (cfg0.win 3).flush t = true ∧ y ∈ ((cfg0.win 3).blk t).view.set := by
  have hy0 : (y 0).val < 256 := (y 0).isLt
  have hy1 : (y 1).val < 1 := (y 1).isLt
  refine ⟨pt ⟨(y 0).val / 8, by omega⟩ 3, (flush0_3 _).mpr (by show (4 * ((y 0).val / 8) + 3) % 4 = 3; omega), ?_⟩
  obtain ⟨-, -, -, -, -, -, -, e0, e1⟩ := idx_facts (pt ⟨(y 0).val / 8, by omega⟩ 3)
  rw [mem_blk]
  intro a
  match a with
  | ⟨0, _⟩ =>
    show win0_3.index _ (0 : Fin 2) * 8 ≤ (y 0).val ∧ (y 0).val < win0_3.index _ (0 : Fin 2) * 8 + 8
    rw [e0]
    show (4 * ((y 0).val / 8) + 3) / 4 * 8 ≤ (y 0).val ∧ (y 0).val < (4 * ((y 0).val / 8) + 3) / 4 * 8 + 8
    omega
  | ⟨1, _⟩ =>
    show win0_3.index _ (1 : Fin 2) * 1 ≤ (y 1).val ∧ (y 1).val < win0_3.index _ (1 : Fin 2) * 1 + 1
    rw [e1]; omega

/-- THE OUTPUT ARRAY after the run. -/
theorem final (c : Dev nD) : (dats m 0 c).arrAt 3 cfg0.N = G m c :=
  (dats m 0 c).arrAt_eq_of_cover 3 (G m c) (flushed_eq m c) (cover c)

end Cert.KernelIdeal.RowValue

end
-- ==== Proof.KernelRun.lean ====
/-
  The kernel program's run, read: its result is the mean loss of the kernel's per-batch-row values.

  After the pallas_call the program views the [256,1] output array as a [256] vector, multiplies it entry
  by entry with each batch row's summed rewards, sums over the 256 rows from 0 and divides by 256. That tail
  is the same text in the reference, so it is kept as one function of the per-row vector and the rewards.
-/
import proofs.«423830_j83013127897790_2_alg».proof.Proof.KernelValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RowValue

open Cert.KernelIdeal Cert.KernelIdeal.Gen Idealize.ShloMosaic.StableHlo

variable (m : (ℓ : Loc nD τ sig) → Buf (Elt Ideal) ℓ) (ρ : Dev nD → PrngReg)

/-- The tail both programs end with: per-row values times per-row reward sums, summed from 0, over 256. -/
def lossTail (v : FVec Ideal S256 .f32) (rewards : FVec Ideal S256x512 .f32) : FVec Ideal S_ .f32 :=
  Host.divf (F := Ideal)
    (Host.reduceAdd (F := Ideal)
      (mulf v (Host.reduceAdd (F := Ideal) rewards (constant (F := Ideal) S_ .f32 0x00000000#32) reducesTo_S256x512_S256_d1 h_S_))
      (constant (F := Ideal) S_ .f32 0x00000000#32) reducesTo_S256_S_d0 h_S_)
    (constant (F := Ideal) S_ .f32 0x43800000#32)

/-- The host lines after the region leave, in the result buffer, the tail of the output array (viewed as a
    vector) and the rewards as launched. -/
theorem tail_eq (c : Dev nD) :
    Pipeline.afterTail₀ cfgs (dats m) 0 (V0 m) [hostOps1] c main_v5
      = lossTail (shapeCast S256 (G m c) shapeCasts_S256x1_S256) (m ((c.tc : Thread nD τ).loc main_arg1)) := by
  unfold Pipeline.afterTail₀
  show StableHlo.after hostOps1 _ (Proc.devRef .tc main_v5) = _
  after_results
  rw [Pipeline.withArrays_of_ne _ c (V0 m c) _ main_arg1 (by exact (by decide : ∀ w, Pipeline.arrRef spec0 w ≠ main_arg1)),
    show Pipeline.withArrays (cfgs 0).spec c (V0 m c) (fun w => (dats m 0 c).arrAt w (cfgs 0).N) (Proc.tc.devRef main_v0) = G m c
      from (Pipeline.withArrays_arr spec0 launch0.win.arr_inj c _ _ 3).trans (final m c)]
  rfl

/-- THE RUN: every weakly fair execution of the kernel program terminates with the result at the tail of the
    per-row values, the four arguments unchanged. -/
theorem run : θ_run defs (onTc (τ := τ) (main (F := Ideal))) ⟨m, fun _ => 0, ρ⟩ fun r => ∀ c : Dev nD,
      r.2.mem ((c.tc : Thread nD τ).loc main_v5)
          = lossTail (shapeCast S256 (G m c) shapeCasts_S256x1_S256) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.RowValue

end
-- ==== Proof.RefLogProb.lean ====
/-
  The reference's masked log-probabilities, read at an entry.

  The reference computes, for every position (b, s) and action a, the log-softmax of the position's row of
  logits at a, (x a − M) − log ∑ exp (x a' − M) with M the row's maximum, times the position's weight
  1 − terminal. Here the stages of that computation are read at an entry one after the other; the result is
  the position's term of the row at the action a.
-/
import proofs.«423830_j83013127897790_2_alg».proof.Proof.RefReadPatched
import proofs.«423830_j83013127897790_2_alg».proof.Proof.RowTerm
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP Cert.Loss Cert.Softmax
open scoped BigOperators

variable (x0 : (⟨S256x512x2048, .f32⟩ : BufTy).Contents (Elt Ideal)) (x2 x3 : (⟨S256x512, .i32⟩ : BufTy).Contents (Elt Ideal))

/-- Position (b, s)'s row of logits. -/
abbrev logitsRow (b : Fin 256) (s : Fin 512) : Fin 2048 → EReal := fun a => x0 (ix3 b s a)

/-- Position (b, s)'s weight: one minus the terminal flag. -/
abbrev weight (b : Fin 256) (s : Fin 512) : EReal :=
  Ideal.ofBits .f32 0x3F800000#32 - (((x3 (ix2 b s)).toInt : ℝ) : EReal)

/-- The index (b, s) with the action a put back on the reduced axis is (b, s, a). -/
theorem lift_actions (h : S256x512x2048.Reduces [2] S256x512) (b : Fin 256) (s : Fin 512) (a : Fin 2048) :
    h.lift (ix2 b s) a = ix3 b s a := by
  funext d
  apply Fin.ext
  match d with
  | ⟨0, _⟩ => rfl
  | ⟨1, _⟩ => rfl
  | ⟨2, _⟩ => rfl

/-- The row maximum (taken from −∞, then once more against −∞) at (b, s). -/
theorem max_apply (b : Fin 256) (s : Fin 512) :
    val_main_call0_v2 (F := Ideal) x0 (ix2 b s) = rowMax (logitsRow x0 b s) := by
  have hR : S256x512x2048.Reduces [2] S256x512 := by decide
  rw [val_main_call0_v2_apply, val_main_call0_v1_apply, val_main_call0_cst_0_apply]
  unfold val_main_call0_v0
  refine (congrArg (max (Ideal.ofBits .f32 0xFF800000#32))
    (Host.reduce_eq_fold_single (FloatOps.maximumf (F := Ideal) (φ := .f32)) x0 (val_main_call0_cst (F := Ideal))
      reducesTo_S256x512x2048_S256x512_d2 hR h_S_ (ix2 b s))).trans ?_
  show max (Ideal.ofBits .f32 0xFF800000#32)
      ((Finset.univ : Finset (Fin 2048)).fold max (Ideal.ofBits .f32 0xFF800000#32) (fun a => x0 (hR.lift (ix2 b s) a))) = _
  rw [ofBits_neg_inf, max_eq_right bot_le]
  exact congrArg (fun f : Fin 2048 → EReal => (Finset.univ : Finset (Fin 2048)).fold max ⊥ f)
    (funext fun a => congrArg x0 (lift_actions hR b s a))

/-- The shifted logit at (b, s, a). -/
theorem shifted_apply (b : Fin 256) (s : Fin 512) (a : Fin 2048) :
    val_main_call0_v5 (F := Ideal) x0 (ix3 b s a) = x0 (ix3 b s a) - rowMax (logitsRow x0 b s) := by
  rw [val_main_call0_v5_apply, val_main_call0_v4_apply, val_main_call0_v3_apply]
  rw [show idx_main_call0_v3 (idx_main_call0_v4 (ix3 b s a)) = ix2 b s from
    funext fun d => Fin.ext (by match d with | ⟨0, _⟩ => rfl | ⟨1, _⟩ => rfl)]
  rw [max_apply]
  rfl

/-- The log-sum-exp at (b, s). -/
theorem lse_apply (b : Fin 256) (s : Fin 512) :
    val_main_call0_v9 (F := Ideal) x0 (ix3 b s 0) = rowLse (logitsRow x0 b s) := by
  rw [val_main_call0_v9_apply, val_main_call0_v8_apply]
  rw [show idx_main_call0_v8 (ix3 b s (0 : Fin 1)) = ix2 b s from
    funext fun d => Fin.ext (by match d with | ⟨0, _⟩ => rfl | ⟨1, _⟩ => rfl)]
  rw [val_main_call0_v7_apply, val_main_call0_cst_1_apply]
  show Ideal.log (Ideal.ofBits .f32 0x00000000#32 + ∑ k : Fin 2048, val_main_call0_v6 (F := Ideal) x0 (idx_main_call0_v7 (ix2 b s) k)) = _
  rw [Ideal.ofBits_zero_f32, zero_add]
  unfold rowLse
  refine congrArg Ideal.log (Finset.sum_congr rfl fun k _ => ?_)
  rw [val_main_call0_v6_apply]
  rw [show idx_main_call0_v7 (ix2 b s) k = ix3 b s k from
    funext fun d => Fin.ext (by match d with | ⟨0, _⟩ => rfl | ⟨1, _⟩ => rfl | ⟨2, _⟩ => rfl)]
  rw [shifted_apply]
  rfl

/-- The log-probability at (b, s, a). -/
theorem logp_apply (b : Fin 256) (s : Fin 512) (a : Fin 2048) :
    val_main_v4 (F := Ideal) x0 (ix3 b s a)
      = (x0 (ix3 b s a) - rowMax (logitsRow x0 b s)) - rowLse (logitsRow x0 b s) := by
  rw [val_main_v4_apply, val_main_call0_v10_apply]
  rw [show idx_main_call0_v10 (ix3 b s a) = ix3 b s (0 : Fin 1) from
    funext fun d => Fin.ext (by match d with | ⟨0, _⟩ => rfl | ⟨1, _⟩ => rfl | ⟨2, _⟩ => rfl)]
  rw [shifted_apply, lse_apply]
  rfl

/-- The weight, broadcast along the actions, at (b, s, a). -/
theorem weight_apply (b : Fin 256) (s : Fin 512) (a : Fin 2048) :
    val_main_v5 (F := Ideal) x3 (ix3 b s a) = weight x3 b s := by
  rw [val_main_v5_apply, val_main_v3_apply]
  rw [show idx_main_v3 (idx_main_v5 (ix3 b s a)) = ix2 b s from
    funext fun d => Fin.ext (by match d with | ⟨0, _⟩ => rfl | ⟨1, _⟩ => rfl)]
  rw [val_main_v2_apply, val_main_v1_apply, val_main_cst_apply, val_main_v0_apply]
  rfl

/-- THE MASKED LOG-PROBABILITY at (b, s, a) is the position's term at the action a. -/
theorem masked_apply (b : Fin 256) (s : Fin 512) (a : Fin 2048) :
    val_main_v6 (F := Ideal) x0 x3 (ix3 b s a) = rowTerm (logitsRow x0 b s) a (weight x3 b s) := by
  rw [val_main_v6_apply, logp_apply, weight_apply]
  rfl

end Cert.ReferenceIdeal.RefValue

end
-- ==== Proof.RefGather.lean ====
/-
  The reference's chosen log-probability and its per-row total, read at an entry.

  The reference takes, at every position (b, s), the masked log-probability at the position's action: it first
  adds 2048 to a negative action, tests the result against [0, 2047], gathers along the action axis at the
  (clamped) result, and keeps the gathered value where the test passed. For an action word that, read
  unsigned, is below 2048 — which is what the precondition gives — the word is not negative, the test passes
  and the clamp does nothing, so the value kept is the position's term at its action. The per-row total is
  the negation of "0 + the sum of the 512 positions' terms".
-/
import proofs.«423830_j83013127897790_2_alg».proof.Proof.RefLogProb
import Idealize.ShloMosaic.Lib.Affine

noncomputable section

namespace Cert.ReferenceIdeal.RefValue

open Idealize.ShloMosaic Idealize.ShloMosaic.ValueIdx
open Cert.ReferenceIdeal Cert.ReferenceIdeal.Gen Cert.ReferenceIdeal.ReadP Cert.Loss Cert.Softmax
open scoped BigOperators

variable (x0 : (⟨S256x512x2048, .f32⟩ : BufTy).Contents (Elt Ideal)) (x2 x3 : (⟨S256x512, .i32⟩ : BufTy).Contents (Elt Ideal))

/-! ### A word below 2048 under the signed tests -/

theorem toInt_of_small (a : BitVec 32) (h : a.toNat < 2048) : a.toInt = (a.toNat : Int) := by
  rw [BitVec.toInt_eq_toNat_cond]
  split <;> omega

theorem slt_zero_of_small (a : BitVec 32) (h : a.toNat < 2048) : IntOp.cmpi .slt a 0#32 = 0#1 := by
  apply eq_zero_of_ne_one
  rw [IntOp.cmpi_slt, toInt_of_small a h, show (0#32 : BitVec 32).toInt = 0 from by decide]
  omega

theorem sge_zero_of_small (a : BitVec 32) (h : a.toNat < 2048) : IntOp.cmpi .sge a 0#32 = 1#1 := by
  rw [IntOp.cmpi_sge, toInt_of_small a h, show (0#32 : BitVec 32).toInt = 0 from by decide]
  omega

theorem sle_max_of_small (a : BitVec 32) (h : a.toNat < 2048) : IntOp.cmpi .sle a 2047#32 = 1#1 := by
  rw [IntOp.cmpi_sle, toInt_of_small a h, show (2047#32 : BitVec 32).toInt = 2047 from by decide]
  omega

/-! ### The start index -/

/-- The start index at (b, s, 0, 0) is the position's action word (the "+ 2048 if negative" not taken). -/
theorem index_apply (hall : ∀ i, (x2 i).toNat < 2048) (b : Fin 256) (s : Fin 512) :
    val_main_call1_v5 (F := Ideal) x2 (ix4 b s 0 0) = x2 (ix2 b s) := by
  have hs := s.isLt
  rw [val_main_call1_v5_apply]
  rw [show idx_main_call1_v5 (ix4 b s (0 : Fin 1) (0 : Fin 1)) = ix3 b s (0 : Fin 1) from
    funext fun d => Fin.ext (by
      match d with
      | ⟨0, _⟩ => show (((b.val * 512 + s.val) * 1 + 0) * 1 + 0) / 512 = b.val; omega
      | ⟨1, _⟩ => show (((b.val * 512 + s.val) * 1 + 0) * 1 + 0) / 1 % 512 = s.val; omega
      | ⟨2, _⟩ => rfl)]
  rw [val_main_call1_v4_apply, val_main_call1_v1_apply, val_main_v7_apply]
  rw [show idx_main_v7 (ix3 b s (0 : Fin 1)) = ix2 b s from
    funext fun d => Fin.ext (by match d with | ⟨0, _⟩ => rfl | ⟨1, _⟩ => rfl)]
  rw [val_main_call1_v0_apply, val_main_call1_c_apply, slt_zero_of_small _ (hall _), select_zero]

/-- Every entry of the start indices is of the form (b, s, 0, 0). -/
theorem eq_ix4_unit (i : S256x512x1x1.Idx) : ∃ (b : Fin 256) (s : Fin 512), i = ix4 b s (0 : Fin 1) (0 : Fin 1) := by
  have h2 : (i 2).val < 1 := (i 2).isLt
  have h3 : (i 3).val < 1 := (i 3).isLt
  refine ⟨⟨(i 0).val, (i 0).isLt⟩, ⟨(i 1).val, (i 1).isLt⟩, ?_⟩
  funext d
  apply Fin.ext
  match d with
  | ⟨0, _⟩ => rfl
  | ⟨1, _⟩ => rfl
  | ⟨2, _⟩ => show (i 2).val = 0; omega
  | ⟨3, _⟩ => show (i 3).val = 0; omega

/-! ### The range test -/

/-- A left fold of "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- The range test passes everywhere. -/
theorem inrange_apply (hall : ∀ i, (x2 i).toNat < 2048) (j : S256x512x1.Idx) :
    val_main_call1_v12 (F := Ideal) x2 j = 1#1 := by
  unfold val_main_call1_v12
  rw [Host.reduce_eq_foldl, val_main_call1_c_3_apply]
  refine foldl_andi_ones _ _ fun i _ => ?_
  obtain ⟨b, s, rfl⟩ := eq_ix4_unit i
  rw [val_main_call1_v11_apply, val_main_call1_v7_apply, val_main_call1_v10_apply,
    index_apply x2 hall, val_main_call1_v6_apply, val_main_call1_c_2_apply, val_main_call1_v9_apply,
    val_main_call1_v8_apply, val_main_call1_c_1_apply, sge_zero_of_small _ (hall _), sle_max_of_small _ (hall _)]
  decide

/-! ### The gather -/

/-- The gather's dimension numbers: batched over the first two axes, the action axis collapsed and indexed. -/
abbrev gd := gather_S256x512x2048_S256x512x1x1_S256x512x1_n_2_01_01_2_3_111

theorem batching0 : (0 : Fin 3) ∈ gd.operandBatchingDims := by decide
theorem batching1 : (1 : Fin 3) ∈ gd.operandBatchingDims := by decide
theorem notBatching2 : (2 : Fin 3) ∉ gd.operandBatchingDims := by decide
theorem collapsed2 : (2 : Fin 3) ∈ gd.collapsedSliceDims := by decide
theorem indexed2 : (2 : Fin 3) ∈ gd.startIndexMap := by decide

/-- On a batching axis the operand coordinate is the result's coordinate on that axis. -/
theorem batch0 (j : S256x512x1.Idx) : gd.batchCoord j (0 : Fin 3) = (j 0).val := by
  unfold GatherDims.batchCoord
  rw [dif_pos batching0]
  rfl

theorem batch1 (j : S256x512x1.Idx) : gd.batchCoord j (1 : Fin 3) = (j 1).val := by
  unfold GatherDims.batchCoord
  rw [dif_pos batching1]
  rfl

/-- On the action axis the slice starts at the start index's one component, read signed and clamped. -/
theorem start2 (j : S256x512x1.Idx) (idx : IVec S256x512x1x1 32) :
    gd.start j idx (2 : Fin 3) = min (idx (gd.siIdx j ⟨0, by decide⟩)).toInt.toNat 2047 := by
  unfold GatherDims.start
  rw [dif_pos indexed2]
  rfl

/-- Result entry (b, s, 0) reads its start index at (b, s, 0, 0). -/
theorem siIdx0 (b : Fin 256) (s : Fin 512) :
    gd.siIdx (ix3 b s (0 : Fin 1)) ⟨0, by decide⟩ = ix4 b s (0 : Fin 1) (0 : Fin 1) := by
  funext d
  refine Fin.ext ?_
  match d with
  | ⟨0, _⟩ => rfl
  | ⟨1, _⟩ => rfl
  | ⟨2, _⟩ => rfl
  | ⟨3, _⟩ => rfl

/-- The gather along the action axis, batched over (b, s): entry (b, s, 0) is the operand at (b, s, k), k the
    start index at (b, s, 0, 0) read signed and clamped to [0, 2047]. -/
theorem gather_apply {α : Type} (x : S256x512x2048.Idx → α) (idx : IVec S256x512x1x1 32) (b : Fin 256) (s : Fin 512) :
    Host.gather gd x idx (ix3 b s (0 : Fin 1))
      = x (ix3 b s ⟨min (idx (ix4 b s (0 : Fin 1) (0 : Fin 1))).toInt.toNat 2047, by omega⟩) := by
  unfold Host.gather
  congr 1
  funext a
  refine Fin.ext ?_
  show gd.start (ix3 b s (0 : Fin 1)) idx a + gd.batchCoord (ix3 b s (0 : Fin 1)) a + gd.offCoord (ix3 b s (0 : Fin 1)) a = _
  match a with
  | ⟨0, _⟩ =>
    show gd.start (ix3 b s (0 : Fin 1)) idx (0 : Fin 3) + gd.batchCoord (ix3 b s (0 : Fin 1)) (0 : Fin 3)
      + gd.offCoord (ix3 b s (0 : Fin 1)) (0 : Fin 3) = b.val
    rw [GatherDims.start_batching gd _ _ _ batching0,
      GatherDims.offCoord_eq_zero gd _ _ (fun h => ((GatherDims.mem_sKept gd _).mp h).2 batching0), batch0]
    show 0 + b.val + 0 = b.val
    omega
  | ⟨1, _⟩ =>
    show gd.start (ix3 b s (0 : Fin 1)) idx (1 : Fin 3) + gd.batchCoord (ix3 b s (0 : Fin 1)) (1 : Fin 3)
      + gd.offCoord (ix3 b s (0 : Fin 1)) (1 : Fin 3) = s.val
    rw [GatherDims.start_batching gd _ _ _ batching1,
      GatherDims.offCoord_eq_zero gd _ _ (fun h => ((GatherDims.mem_sKept gd _).mp h).2 batching1), batch1]
    show 0 + s.val + 0 = s.val
    omega
  | ⟨2, _⟩ =>
    show gd.start (ix3 b s (0 : Fin 1)) idx (2 : Fin 3) + gd.batchCoord (ix3 b s (0 : Fin 1)) (2 : Fin 3)
      + gd.offCoord (ix3 b s (0 : Fin 1)) (2 : Fin 3) = min (idx (ix4 b s (0 : Fin 1) (0 : Fin 1))).toInt.toNat 2047
    rw [GatherDims.batchCoord_eq_zero gd _ _ notBatching2,
      GatherDims.offCoord_eq_zero gd _ _ (fun h => ((GatherDims.mem_sKept gd _).mp h).1 collapsed2), start2, siIdx0]
    omega

/-- The gathered value at (b, s, 0) is the masked log-probability at the position's action. -/
theorem gathered_apply (hall : ∀ i, (x2 i).toNat < 2048) (b : Fin 256) (s : Fin 512) :
    val_main_call1_v13 (F := Ideal) x0 x2 x3 (ix3 b s (0 : Fin 1))
      = val_main_v6 (F := Ideal) x0 x3 (ix3 b s ⟨(x2 (ix2 b s)).toNat, hall _⟩) := by
  unfold val_main_call1_v13
  rw [gather_apply]
  refine congrArg (val_main_v6 (F := Ideal) x0 x3) (congrArg (ix3 b s) (Fin.ext ?_))
  show min (val_main_call1_v5 (F := Ideal) x2 (ix4 b s 0 0)).toInt.toNat 2047 = (x2 (ix2 b s)).toNat
  rw [index_apply x2 hall, toInt_of_small _ (hall _)]
  have := hall (ix2 b s)
  omega

/-! ### The chosen term and the row total -/

/-- The value kept at position (b, s) is the position's term at its action. -/
theorem chosen_apply (hall : ∀ i, (x2 i).toNat < 2048) (b : Fin 256) (s : Fin 512) :
    val_main_v9 (F := Ideal) x0 x2 x3 (ix2 b s)
      = rowTerm (logitsRow x0 b s) ⟨(x2 (ix2 b s)).toNat, hall _⟩ (weight x3 b s) := by
  have hs := s.isLt
  rw [val_main_v9_apply]
  rw [show idx_main_v9 (ix2 b s) = ix3 b s (0 : Fin 1) from
    funext fun d => Fin.ext (by
      match d with
      | ⟨0, _⟩ => show (b.val * 512 + s.val) / 512 = b.val; omega
      | ⟨1, _⟩ => show (b.val * 512 + s.val) / 1 % 512 = s.val; omega
      | ⟨2, _⟩ => rfl)]
  rw [val_main_v8_apply, inrange_apply x2 hall, select_one, gathered_apply x0 x2 x3 hall, masked_apply]

/-- THE ROW TOTAL at batch row b: the negation of "0 + the sum of the 512 positions' terms". -/
theorem total_apply (hall : ∀ i, (x2 i).toNat < 2048) (b : Fin 256) :
    val_main_v11 (F := Ideal) x0 x2 x3 (ix1 b)
      = -(Ideal.ofBits .f32 0x00000000#32
          + ∑ s : Fin 512, rowTerm (logitsRow x0 b s) ⟨(x2 (ix2 b s)).toNat, hall _⟩ (weight x3 b s)) := by
  rw [val_main_v11_apply, val_main_v10_apply, val_main_cst_0_apply]
  show -(Ideal.ofBits .f32 0x00000000#32 + ∑ k : Fin 512, val_main_v9 (F := Ideal) x0 x2 x3 (idx_main_v10 (ix1 b) k)) = _
  refine congrArg (fun z => -(Ideal.ofBits .f32 0x00000000#32 + z)) (Finset.sum_congr rfl fun k _ => ?_)
  rw [show idx_main_v10 (ix1 b) k = ix2 b k from
    funext fun d => Fin.ext (by match d with | ⟨0, _⟩ => rfl | ⟨1, _⟩ => rfl)]
  exact chosen_apply x0 x2 x3 hall b k

end Cert.ReferenceIdeal.RefValue

end
-- ==== Proof.Domain.lean ====
/-
  What the precondition says about the inputs.

  The precondition is the conjunction of four "for all entries" tests: |logit| < +∞, |reward| < +∞,
  action ≥ 0 and action < 2048 (signed). When it holds, every logit is a real number (an extended real
  whose absolute value is below +∞ is neither infinity), and every action word, read unsigned, is below
  2048 (a word that is signed-nonnegative and signed-below 2048 is that number).
-/
import proofs.«423830_j83013127897790_2_alg».proof.Pre_finite_inputs
import proofs.«423830_j83013127897790_2_alg».proof.Proof.LibRealVariance
import Idealize.ShloMosaic.Lib.ReduceAll
import Idealize.ShloMosaic.Lib.Affine
import Idealize.ShloMosaic.Lib.ValueIdx
import Idealize.ShloMosaic.PureOps.Ideal.Laws

noncomputable section

namespace Cert.Loss.Domain

open Idealize.ShloMosaic Cert.Pre_finite_inputs Cert.Alg

variable [Cert.Pre_finite_inputs.Facts]
open Cert.Pre_finite_inputs.Facts

instance : Subsingleton S_.Idx := ⟨fun a b => funext fun d => d.elim0⟩

/-- The pattern of +∞ denotes the top of the extended reals. -/
theorem ofBits_inf : Ideal.ofBits .f32 0x7F800000#32 = ⊤ := by simp [Ideal.ofBits, Ideal.ieee]

/-- An extended real whose absolute value tests below +∞ is a real number. -/
theorem isReal_of_test (x : EReal)
    (h : FloatOps.cmpf (F := Ideal) (φ := .f32) .olt (FloatOps.hostAbsf (F := Ideal) (φ := .f32) x) (Ideal.ofBits .f32 0x7F800000#32) = 1#1) :
    IsReal x := by
  rw [Ideal.cmpf_def, Ideal.hostAbsf_def, Ideal.absf_def, ofBits_inf] at h
  unfold Ideal.cmp at h
  have h' : max x (-x) < ⊤ := by
    by_contra hn
    simp [hn] at h
  exact isReal_of_abs_lt_top h'

/-- A word that tests signed-nonnegative and signed-below 2048 is, read unsigned, below 2048. -/
theorem toNat_lt_of_tests (a : BitVec 32) (h0 : IntOp.cmpi .sge a 0#32 = 1#1) (h1 : IntOp.cmpi .slt a 2048#32 = 1#1) :
    a.toNat < 2048 := by
  rw [IntOp.cmpi_sge] at h0
  rw [IntOp.cmpi_slt] at h1
  have e0 : (0#32 : BitVec 32).toInt = 0 := by decide
  have e1 : (2048#32 : BitVec 32).toInt = 2048 := by decide
  rw [e0] at h0
  rw [e1] at h1
  rw [BitVec.toInt_eq_toNat_cond] at h0 h1
  have := a.isLt
  split at h0 <;> omega

/-- THE DECODING: under the precondition every logit is real and every action is in range. -/
theorem decode (x0 : FVec Ideal S256x512x2048 .f32) (x1 : FVec Ideal S256x512 .f32) (x2 x3 : IVec S256x512 32)
    (h : Cert.Pre_finite_inputs.fn (F := Ideal) x0 x1 x2 x3 = fun _ => 1#1) :
    (∀ i, IsReal (x0 i)) ∧ (∀ i, (x2 i).toNat < 2048) := by
  have h' := congrFun h ValueIdx.ix0
  unfold Cert.Pre_finite_inputs.fn Cert.Pre_finite_inputs.fn_part1 at h'
  dsimp only at h'
  obtain ⟨h123, h4⟩ := IntOp.andi_eq_one.mp h'
  obtain ⟨h12, h3⟩ := IntOp.andi_eq_one.mp h123
  obtain ⟨h1, -⟩ := IntOp.andi_eq_one.mp h12
  refine ⟨fun i => ?_, fun i => ?_⟩
  · have e := Host.reduce_andi_all _ _ _ _ _ h1 i
    exact isReal_of_test (x0 i) e
  · have e3 := Host.reduce_andi_all _ _ _ _ _ h3 i
    have e4 := Host.reduce_andi_all _ _ _ _ _ h4 i
    exact toNat_lt_of_tests (x2 i) e3 e4

end Cert.Loss.Domain

end
-- ==== Proof.Bridge.lean ====
/-
  The two programs compute the same per-row values, hence the same loss.

  Per position the kernel finds the chosen action by comparing every action's number with the action word
  and summing "the shifted logit where they agree, else 0"; for an action word below 2048 exactly one action
  agrees, so the sum is the shifted logit at that action, which is what the reference gathers. Per batch row
  the kernel adds the four tiles' negated partial sums one after the other onto 0, the reference negates the
  whole sum from 0; for real terms these agree (the regrouping law), and the terms are real because the logits
  are. The rest of both programs is the same function of the per-row values and the rewards.
-/
import proofs.«423830_j83013127897790_2_alg».proof.Proof.KernelRun
import proofs.«423830_j83013127897790_2_alg».proof.Proof.RefGather
import proofs.«423830_j83013127897790_2_alg».proof.Proof.Domain

noncomputable section

namespace Cert.Loss.Bridge

open Idealize.ShloMosaic Idealize.ShloMosaic.TcCoe Idealize.SL.Sem Idealize.ShloMosaic.ValueIdx
open Cert.Loss Cert.Alg Cert.KernelIdeal.Payload Cert.KernelIdeal.RowValue
open scoped BigOperators

/-- The one-hot comparison at an action word below 2048 picks that action's entry. -/
theorem posTerm_eq (x : Fin 2048 → EReal) (act trm : BitVec 32) (h : act.toNat < 2048) :
    posTerm x act trm
      = rowTerm x ⟨act.toNat, h⟩ (Ideal.ofBits .f32 0x3F800000#32 - ((trm.toInt : ℝ) : EReal)) := by
  unfold posTerm rowTerm
  refine congrArg (fun z => (z - rowLse x) * (Ideal.ofBits .f32 0x3F800000#32 - ((trm.toInt : ℝ) : EReal))) ?_
  rw [← sum_pick (fun a => x a - rowMax x) ⟨act.toNat, h⟩]
  refine Finset.sum_congr rfl fun a _ => ?_
  by_cases e : a = ⟨act.toNat, h⟩
  · subst e
    rw [if_pos rfl, show IntOp.cmpi .eq (BitVec.ofNat 32 act.toNat) act = 1#1 from
      IntOp.cmpi_eq.mpr (BitVec.eq_of_toNat_eq (by rw [BitVec.toNat_ofNat]; exact Nat.mod_eq_of_lt act.isLt)), select_one]
  · have hne : ¬IntOp.cmpi .eq (BitVec.ofNat 32 a.val) act = 1#1 := fun h1 => e (Fin.ext (by
      have e1 := congrArg BitVec.toNat (IntOp.cmpi_eq.mp h1)
      rw [BitVec.toNat_ofNat] at e1
      have := a.isLt
      show a.val = act.toNat
      omega))
    rw [if_neg e, eq_zero_of_ne_one hne, select_zero, Ideal.ofBits_zero_f32]

/-- The weight of a position is a real number. -/
theorem isReal_weight (trm : BitVec 32) :
    IsReal (Ideal.ofBits .f32 0x3F800000#32 - ((trm.toInt : ℝ) : EReal)) := by
  rw [ofBits_one]
  exact (IsReal.coe _).sub (IsReal.coe _)

/-- A batch row's tile sum and accumulated value as functions of the three arrays alone. -/
def tileSumOf (x : FVec Ideal ⟨3, ![256, 512, 2048]⟩ .f32) (A T : IVec ⟨2, ![256, 512]⟩ 32) (b : Fin 256) (j : Fin 4) : EReal :=
  ∑ l : Fin 128, posTerm (fun a => x (ix3 b (tileEquiv (j, l)) a)) (A (ix2 b (tileEquiv (j, l)))) (T (ix2 b (tileEquiv (j, l))))

def rowValOf (x : FVec Ideal ⟨3, ![256, 512, 2048]⟩ .f32) (A T : IVec ⟨2, ![256, 512]⟩ 32) (b : Fin 256) : EReal :=
  (((Ideal.ofBits .f32 0x00000000#32 + (Ideal.ofBits .f32 0x00000000#32 - tileSumOf x A T b 0))
      + (Ideal.ofBits .f32 0x00000000#32 - tileSumOf x A T b 1))
      + (Ideal.ofBits .f32 0x00000000#32 - tileSumOf x A T b 2))
      + (Ideal.ofBits .f32 0x00000000#32 - tileSumOf x A T b 3)

/-- The regrouping law over any four tile sums that are the sums of 512 real terms 128 at a time. -/
theorem chain_of_tiles (cf : Fin 512 → EReal) (hc : ∀ s, IsReal (cf s)) (t : Fin 4 → EReal)
    (ht : ∀ j, t j = ∑ l : Fin 128, cf (tileEquiv (j, l))) :
    (((Ideal.ofBits .f32 0x00000000#32 + (Ideal.ofBits .f32 0x00000000#32 - t 0))
        + (Ideal.ofBits .f32 0x00000000#32 - t 1))
        + (Ideal.ofBits .f32 0x00000000#32 - t 2))
        + (Ideal.ofBits .f32 0x00000000#32 - t 3)
      = -(Ideal.ofBits .f32 0x00000000#32 + ∑ s : Fin 512, cf s) := by
  rw [ht 0, ht 1, ht 2, ht 3, Ideal.ofBits_zero_f32]
  exact chain_eq_neg_sum cf hc

/-- For real logits and in-range actions, a batch row's accumulated value is the negation of the row's whole
    sum from 0: the picking law position by position, then the regrouping law. -/
theorem rowValOf_eq (x : FVec Ideal ⟨3, ![256, 512, 2048]⟩ .f32) (A T : IVec ⟨2, ![256, 512]⟩ 32)
    (hreal : ∀ i, IsReal (x i)) (hall : ∀ i, (A i).toNat < 2048) (b : Fin 256) :
    rowValOf x A T b
      = -(Ideal.ofBits .f32 0x00000000#32
          + ∑ s : Fin 512, rowTerm (fun a => x (ix3 b s a)) ⟨(A (ix2 b s)).toNat, hall _⟩
              (Ideal.ofBits .f32 0x3F800000#32 - (((T (ix2 b s)).toInt : ℝ) : EReal))) :=
  chain_of_tiles
    (fun s : Fin 512 => rowTerm (fun a => x (ix3 b s a)) ⟨(A (ix2 b s)).toNat, hall _⟩
      (Ideal.ofBits .f32 0x3F800000#32 - (((T (ix2 b s)).toInt : ℝ) : EReal)))
    (fun s => isReal_rowTerm _ _ _ (fun a => hreal _) (isReal_weight _))
    (tileSumOf x A T b)
    (fun j => Finset.sum_congr rfl fun l _ => posTerm_eq _ _ _ (hall _))

/-- THE PER-ROW VALUES AGREE: the kernel's output array, viewed as a vector, is the reference's row totals. -/
theorem rows_eq (m : (ℓ : Loc Cert.KernelIdeal.nD Cert.KernelIdeal.τ Cert.KernelIdeal.sig) → Buf (Elt Ideal) ℓ)
    (c : Dev Cert.KernelIdeal.nD) (hreal : ∀ i, IsReal (logits m c i)) (hall : ∀ i, (actions m c i).toNat < 2048) :
    shapeCast Cert.KernelIdeal.S256 (G m c) Cert.KernelIdeal.Facts₀.shapeCasts_S256x1_S256
      = Cert.ReferenceIdeal.ReadP.val_main_v11 (F := Ideal) (logits m c) (actions m c) (terminals m c) := by
  funext j
  obtain ⟨b, rfl⟩ : ∃ b : Fin 256, j = ix1 b := ⟨⟨(j 0).val, (j 0).isLt⟩, funext fun d => Fin.ext (by match d with | ⟨0, _⟩ => rfl)⟩
  refine ((shapeCast_apply (G m c) Cert.KernelIdeal.Facts₀.shapeCasts_S256x1_S256 (ix1 b) (ix2 b (0 : Fin 1)) (by
    rw [Shape.rowMajor_val_two, Shape.rowMajor_val_one]
    show b.val * 1 + 0 = b.val
    omega)).trans ?_).trans
    (Cert.ReferenceIdeal.RefValue.total_apply (logits m c) (actions m c) (terminals m c) hall b).symm
  exact rowValOf_eq (logits m c) (actions m c) (terminals m c) hreal hall b

/-- THE RESULTS AGREE: the kernel's result is the reference's last stage of the same arguments. -/
theorem result_eq (m : (ℓ : Loc Cert.KernelIdeal.nD Cert.KernelIdeal.τ Cert.KernelIdeal.sig) → Buf (Elt Ideal) ℓ)
    (c : Dev Cert.KernelIdeal.nD) (hreal : ∀ i, IsReal (logits m c i)) (hall : ∀ i, (actions m c i).toNat < 2048) :
    lossTail (shapeCast Cert.KernelIdeal.S256 (G m c) Cert.KernelIdeal.Facts₀.shapeCasts_S256x1_S256)
        (m ((c.tc : Thread Cert.KernelIdeal.nD Cert.KernelIdeal.τ).loc Cert.KernelIdeal.main_arg1))
      = Cert.ReferenceIdeal.ReadP.val_main_v15 (F := Ideal) (logits m c)
          (m ((c.tc : Thread Cert.KernelIdeal.nD Cert.KernelIdeal.τ).loc Cert.KernelIdeal.main_arg1))
          (actions m c) (terminals m c) := by
  exact congrArg (fun v => lossTail v
    (m ((c.tc : Thread Cert.KernelIdeal.nD Cert.KernelIdeal.τ).loc Cert.KernelIdeal.main_arg1))) (rows_eq m c hreal hall)

end Cert.Loss.Bridge

end
-- ==== Proof.lean ====
/-
  The policy-gradient loss kernel against its jnp reference, over the extended reals.

  Both programs compute  mean over the 256 batch rows b of  L b · R b,  where R b is the sum of row b's 512
  rewards and L b is the negated sum over the row's 512 positions s of the position's term
      ((x k − M) − log ∑ a, exp (x a − M)) · (1 − terminal),
  x the position's 2048 logits, M their maximum and k the position's action.

  * The kernel works on tiles of 8 rows by 128 positions: it finds x k − M as the sum over the actions of "x a − M
    where a equals the action word, else 0", takes each tile's partial sum S, and accumulates 0 − S over the four
    tiles of a batch block in an output block that is reset at the first tile and written back after the fourth.
  * The reference computes the masked log-softmax of all positions and actions, gathers it at the action
    (a negative action moved up by 2048, an action outside [0, 2047] answered by NaN), and negates each row's sum.

  Under the precondition — finite logits and rewards, and 0 ≤ action < 2048 — the two agree: the action word picks
  exactly one action in the kernel's sum and passes the reference's range test unchanged; every position's term is a
  real number, so the kernel's tile-by-tile accumulation of negated partial sums is the negation of the whole sum;
  and what follows the per-row values is the same text in both programs.
-/
import proofs.«423830_j83013127897790_2_alg».proof.Defs
import proofs.«423830_j83013127897790_2_alg».proof.Proof.Gen.Kernel
import proofs.«423830_j83013127897790_2_alg».proof.Proof.Gen.Kernel.Skeleton
import proofs.«423830_j83013127897790_2_alg».proof.Proof.Gen.Kernel.Launch
import proofs.«423830_j83013127897790_2_alg».proof.Proof.Gen.Kernel.Points
import proofs.«423830_j83013127897790_2_alg».proof.Proof.Gen.Kernel.Frame
import proofs.«423830_j83013127897790_2_alg».proof.Proof.Gen.KernelIdeal
import proofs.«423830_j83013127897790_2_alg».proof.Proof.Gen.KernelIdeal.Skeleton
import proofs.«423830_j83013127897790_2_alg».proof.Proof.Gen.KernelIdeal.Launch
import proofs.«423830_j83013127897790_2_alg».proof.Proof.Gen.KernelIdeal.Points
import proofs.«423830_j83013127897790_2_alg».proof.Proof.Gen.KernelIdeal.Frame
import proofs.«423830_j83013127897790_2_alg».proof.Proof.Gen.ReferenceIdeal
import proofs.«423830_j83013127897790_2_alg».proof.Proof.Gen.Pre_finite_inputs
import proofs.«423830_j83013127897790_2_alg».proof.Proof.RefRun
import proofs.«423830_j83013127897790_2_alg».proof.Proof.KernelRun
import proofs.«423830_j83013127897790_2_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and its run keeps the arguments. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing in this kernel. -/
theorem preserves : Cert.preserves_Kernel_KernelIdeal := trivial

/-- At the extended reals both programs end at the same mean loss: the kernel's run leaves the shared tail of its
    per-row values, the reference's the last stage of its straight line, and under the precondition the per-row
    values are the reference's row totals. -/
theorem algebraic : Cert.algebraic_KernelIdeal_ReferenceIdeal := by
  intro m ρ m' ρ' hpre hagree
  have hdec := fun c => Cert.Loss.Domain.decode _ _ _ _ (hpre c)
  refine ⟨fun c => Cert.KernelIdeal.RowValue.lossTail
      (shapeCast Cert.KernelIdeal.S256 (Cert.KernelIdeal.RowValue.G m c) Cert.KernelIdeal.Facts₀.shapeCasts_S256x1_S256)
      (m ((c.tc : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.Loss.Bridge.result_eq m c (hdec c).1 (hdec c).2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
